-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v87)) (v1 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_v85) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128 .f32) (main_arg6 : FVec F S128x64 .f32) (main_arg7 : FVec F S64 .f32) (main_arg8 : FVec F S64x1 .f32) (main_arg9 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x64 .f32) (main_arg7 : FVec F S64 .f32) (main_arg8 : FVec F S64x1 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S5000x128 : Shape := ⟨2, ![5000, 128]⟩
abbrev S850000x128 : Shape := ⟨2, ![850000, 128]⟩
abbrev S1x64 : Shape := ⟨2, ![1, 64]⟩
abbrev S50000x64 : Shape := ⟨2, ![50000, 64]⟩
abbrev S5000x64 : Shape := ⟨2, ![5000, 64]⟩
abbrev S850000x64 : Shape := ⟨2, ![850000, 64]⟩
abbrev S1x1 : Shape := ⟨2, ![1, 1]⟩
abbrev S50000x1 : Shape := ⟨2, ![50000, 1]⟩
abbrev S5000x1 : Shape := ⟨2, ![5000, 1]⟩

abbrev nBuf : Space → Nat
  | .hbm => 121
  | .vmem => 39
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000, .f32⟩
  | .hbm, ⟨52, _⟩ => ⟨S850000, .f32⟩
  | .hbm, ⟨53, _⟩ => ⟨S_, .f32⟩
  | .hbm, ⟨54, _⟩ => ⟨S128, .f32⟩
  | .hbm, ⟨55, _⟩ => ⟨S1x128, .f32⟩
  | .hbm, ⟨56, _⟩ => ⟨S50000x128, .f32⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000x128, .f32⟩
  | .hbm, ⟨66, _⟩ => ⟨S850000x1, .f32⟩
  | .hbm, ⟨67, _⟩ => ⟨S850000x128, .f32⟩
  | .hbm, ⟨68, _⟩ => ⟨S850000x128, .f32⟩
  | .hbm, ⟨69, _⟩ => ⟨S_, .f32⟩
  | .hbm, ⟨70, _⟩ => ⟨S50000x128, .f32⟩
  | .hbm, ⟨71, _⟩ => ⟨S850000x1, .i32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S_, .f32⟩
  | .hbm, ⟨76, _⟩ => ⟨S128, .f32⟩
  | .hbm, ⟨77, _⟩ => ⟨S1x128, .f32⟩
  | .hbm, ⟨78, _⟩ => ⟨S50000x128, .f32⟩
  | .hbm, ⟨79, _⟩ => ⟨S_, .i32⟩
  | .hbm, ⟨80, _⟩ => ⟨S850000, .i32⟩
  | .hbm, ⟨81, _⟩ => ⟨S850000, .i1⟩
  | .hbm, ⟨82, _⟩ => ⟨S_, .i32⟩
  | .hbm, ⟨83, _⟩ => ⟨S850000, .i32⟩
  | .hbm, ⟨84, _⟩ => ⟨S850000, .i32⟩
  | .hbm, ⟨85, _⟩ => ⟨S850000, .i32⟩
  | .hbm, ⟨86, _⟩ => ⟨S850000x1, .i32⟩
  | .hbm, ⟨87, _⟩ => ⟨S850000x128, .f32⟩
  | .hbm, ⟨88, _⟩ => ⟨S850000x1, .f32⟩
  | .hbm, ⟨89, _⟩ => ⟨S850000x128, .f32⟩
  | .hbm, ⟨90, _⟩ => ⟨S850000x128, .f32⟩
  | .hbm, ⟨91, _⟩ => ⟨S_, .f32⟩
  | .hbm, ⟨92, _⟩ => ⟨S50000x128, .f32⟩
  | .hbm, ⟨93, _⟩ => ⟨S850000x1, .i32⟩
  | .hbm, ⟨94, _⟩ => ⟨S50000x128, .f32⟩
  | .hbm, ⟨95, _⟩ => ⟨S1x128, .f32⟩
  | .hbm, ⟨96, _⟩ => ⟨S50000x128, .f32⟩
  | .hbm, ⟨97, _⟩ => ⟨S_, .f32⟩
  | .hbm, ⟨98, _⟩ => ⟨S64, .f32⟩
  | .hbm, ⟨99, _⟩ => ⟨S1x64, .f32⟩
  | .hbm, ⟨100, _⟩ => ⟨S50000x64, .f32⟩
  | .hbm, ⟨101, _⟩ => ⟨S_, .i32⟩
  | .hbm, ⟨102, _⟩ => ⟨S850000, .i32⟩
  | .hbm, ⟨103, _⟩ => ⟨S850000, .i1⟩
  | .hbm, ⟨104, _⟩ => ⟨S_, .i32⟩
  | .hbm, ⟨105, _⟩ => ⟨S850000, .i32⟩
  | .hbm, ⟨106, _⟩ => ⟨S850000, .i32⟩
  | .hbm, ⟨107, _⟩ => ⟨S850000, .i32⟩
  | .hbm, ⟨108, _⟩ => ⟨S850000x1, .i32⟩
  | .hbm, ⟨109, _⟩ => ⟨S850000x64, .f32⟩
  | .hbm, ⟨110, _⟩ => ⟨S850000x1, .f32⟩
  | .hbm, ⟨111, _⟩ => ⟨S850000x64, .f32⟩
  | .hbm, ⟨112, _⟩ => ⟨S850000x64, .f32⟩
  | .hbm, ⟨113, _⟩ => ⟨S_, .f32⟩
  | .hbm, ⟨114, _⟩ => ⟨S50000x64, .f32⟩
  | .hbm, ⟨115, _⟩ => ⟨S850000x1, .i32⟩
  | .hbm, ⟨116, _⟩ => ⟨S50000x64, .f32⟩
  | .hbm, ⟨117, _⟩ => ⟨S1x64, .f32⟩
  | .hbm, ⟨118, _⟩ => ⟨S50000x64, .f32⟩
  | .hbm, ⟨119, _⟩ => ⟨S1x1, .f32⟩
  | .hbm, ⟨120, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S1x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S64x1, .f32⟩
  | .local _ .vmem, ⟨36, _⟩ => ⟨S1x1, .f32⟩
  | .local _ .vmem, ⟨37, _⟩ => ⟨S5000x1, .f32⟩
  | .local _ .vmem, ⟨38, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_10 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_12 : Ref sig .tc := ⟨.hbm, 79, rfl⟩
abbrev main_v53 : Ref sig .tc := ⟨.hbm, 80, rfl⟩
abbrev main_v54 : Ref sig .tc := ⟨.hbm, 81, rfl⟩
abbrev main_c_13 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_14 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_15 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_16 : Ref sig .tc := ⟨.hbm, 101, rfl⟩
abbrev main_v71 : Ref sig .tc := ⟨.hbm, 102, rfl⟩
abbrev main_v72 : Ref sig .tc := ⟨.hbm, 103, rfl⟩
abbrev main_c_17 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg2_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg3_0 : Ref sig .tc := ⟨.vmem, 37, rfl⟩
abbrev cc6_stg3_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem2_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem3_0 : DmaSem sig := 37
abbrev cc6_sem3_1 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S128 : S_.BroadcastsInDim S128 (![] : Fin 0 → Fin S128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S5000x128_S5000x128 : S5000x128.ShapeCasts S5000x128
  bcast_S_S64 : S_.BroadcastsInDim S64 (![] : Fin 0 → Fin S64.rank)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S5000x64_S5000x64 : S5000x64.ShapeCasts S5000x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x1.size a ≤ S64x1.size a
  hwx6_1 : ∀ i : grid6.Coords, EltTy.bits .f32 = 32 ∨ (Rect.block (s := S64x1) S64x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x1.size a ≤ S50000x1.size a
  hwx6_3 : ∀ i : grid6.Coords, EltTy.bits .f32 = 32 ∨ (Rect.block (s := S50000x1) S5000x1.size (cc6_transform_3 i) (hinb6_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v65) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v67) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v69) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v70) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v83) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v85) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v85) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S64x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v86) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v87) S5000x1.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩
abbrev S1x1 : Shape := ⟨2, ![1, 1]⟩

abbrev nBuf : Space → Nat
  | .hbm => 123
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000, .f32⟩
  | .hbm, ⟨52, _⟩ => ⟨S850000, .f32⟩
  | .hbm, ⟨53, _⟩ => ⟨S50000x128, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x128, .f32⟩
  | .hbm, ⟨63, _⟩ => ⟨S850000x1, .f32⟩
  | .hbm, ⟨64, _⟩ => ⟨S850000x128, .f32⟩
  | .hbm, ⟨65, _⟩ => ⟨S850000x128, .f32⟩
  | .hbm, ⟨66, _⟩ => ⟨S_, .f32⟩
  | .hbm, ⟨67, _⟩ => ⟨S50000x128, .f32⟩
  | .hbm, ⟨68, _⟩ => ⟨S850000x1, .i32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S_, .i32⟩
  | .hbm, ⟨78, _⟩ => ⟨S850000, .i32⟩
  | .hbm, ⟨79, _⟩ => ⟨S850000, .i1⟩
  | .hbm, ⟨80, _⟩ => ⟨S_, .i32⟩
  | .hbm, ⟨81, _⟩ => ⟨S850000, .i32⟩
  | .hbm, ⟨82, _⟩ => ⟨S850000, .i32⟩
  | .hbm, ⟨83, _⟩ => ⟨S850000, .i32⟩
  | .hbm, ⟨84, _⟩ => ⟨S850000x1, .i32⟩
  | .hbm, ⟨85, _⟩ => ⟨S850000x128, .f32⟩
  | .hbm, ⟨86, _⟩ => ⟨S850000x1, .f32⟩
  | .hbm, ⟨87, _⟩ => ⟨S850000x128, .f32⟩
  | .hbm, ⟨88, _⟩ => ⟨S850000x128, .f32⟩
  | .hbm, ⟨89, _⟩ => ⟨S_, .f32⟩
  | .hbm, ⟨90, _⟩ => ⟨S50000x128, .f32⟩
  | .hbm, ⟨91, _⟩ => ⟨S850000x1, .i32⟩
  | .hbm, ⟨92, _⟩ => ⟨S50000x128, .f32⟩
  | .hbm, ⟨93, _⟩ => ⟨S1x128, .f32⟩
  | .hbm, ⟨94, _⟩ => ⟨S50000x128, .f32⟩
  | .hbm, ⟨95, _⟩ => ⟨S50000x128, .f32⟩
  | .hbm, ⟨96, _⟩ => ⟨S_, .f32⟩
  | .hbm, ⟨97, _⟩ => ⟨S50000x128, .f32⟩
  | .hbm, ⟨98, _⟩ => ⟨S50000x128, .f32⟩
  | .hbm, ⟨99, _⟩ => ⟨S50000x64, .f32⟩
  | .hbm, ⟨100, _⟩ => ⟨S_, .i32⟩
  | .hbm, ⟨101, _⟩ => ⟨S850000, .i32⟩
  | .hbm, ⟨102, _⟩ => ⟨S850000, .i1⟩
  | .hbm, ⟨103, _⟩ => ⟨S_, .i32⟩
  | .hbm, ⟨104, _⟩ => ⟨S850000, .i32⟩
  | .hbm, ⟨105, _⟩ => ⟨S850000, .i32⟩
  | .hbm, ⟨106, _⟩ => ⟨S850000, .i32⟩
  | .hbm, ⟨107, _⟩ => ⟨S850000x1, .i32⟩
  | .hbm, ⟨108, _⟩ => ⟨S850000x64, .f32⟩
  | .hbm, ⟨109, _⟩ => ⟨S850000x1, .f32⟩
  | .hbm, ⟨110, _⟩ => ⟨S850000x64, .f32⟩
  | .hbm, ⟨111, _⟩ => ⟨S850000x64, .f32⟩
  | .hbm, ⟨112, _⟩ => ⟨S_, .f32⟩
  | .hbm, ⟨113, _⟩ => ⟨S50000x64, .f32⟩
  | .hbm, ⟨114, _⟩ => ⟨S850000x1, .i32⟩
  | .hbm, ⟨115, _⟩ => ⟨S50000x64, .f32⟩
  | .hbm, ⟨116, _⟩ => ⟨S1x64, .f32⟩
  | .hbm, ⟨117, _⟩ => ⟨S50000x64, .f32⟩
  | .hbm, ⟨118, _⟩ => ⟨S50000x64, .f32⟩
  | .hbm, ⟨119, _⟩ => ⟨S50000x1, .f32⟩
  | .hbm, ⟨120, _⟩ => ⟨S1x1, .f32⟩
  | .hbm, ⟨121, _⟩ => ⟨S50000x1, .f32⟩
  | .hbm, ⟨122, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call2_cst : Ref sig .tc := ⟨.hbm, 96, rfl⟩
abbrev main_call2_v0 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_c_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_15 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x1_S50000x1_1_0_0_1_n_n_wf : DotDims.WF S50000x64 S64x1 S50000x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.Carry.lean ====
import proofs.«148064_j9405978378565_1_alg».proof.Proof.Gen.KernelIdeal.Frame

set_option maxRecDepth 16384

/-!
  What each item of the program leaves alone. A stretch of host operations rewrites only the buffers its operations
  name as results; a kernel region rewrites only the arrays its windows stage. So a buffer outside those lists holds,
  at the boundary after the item, what it held at the boundary before: the facts below, one per item, with the
  membership side conditions decidable on literal references.
-/

noncomputable section

namespace Cert.KernelIdeal.Carry

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The references `hostOps0`'s operations write. -/
abbrev hostOps0_W : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3]
theorem hostOps0_writes : (hostOps0 : List (HloOp τ sig (Elt F))).Forall fun op => op.writes ⊆ ((hostOps0_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer `hostOps0` does not write is after it as before it. -/
theorem W1_of (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h

/-- The references `hostOps0_1`'s operations write. -/
abbrev hostOps0_1_W : List (Ref sig .tc) := [main_call0_v0, main_call0_v1, main_v16]
theorem hostOps0_1_writes : (hostOps0_1 : List (HloOp τ sig (Elt F))).Forall fun op => op.writes ⊆ ((hostOps0_1_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer `hostOps0_1` does not write is after it as before it. -/
theorem W2_of (c : Dev nD) (r : Ref sig .tc) (h : r ∉ (hostOps0_1_W : List (Ref sig .tc))) :
    W2 m ρ c (Proc.devRef .tc r) = W1 m ρ c (Proc.devRef .tc r) :=
  StableHlo.after_of_writes_sub hostOps0_1 _ hostOps0_1_writes h

/-- The references `hostOps0_2`'s operations write. -/
abbrev hostOps0_2_W : List (Ref sig .tc) := [main_c, main_v17, main_v18, main_c_4, main_v19, main_v20, main_v21, main_v22, main_v23, main_c_5, main_v24, main_v25, main_c_6, main_v26, main_v27, main_v28, main_v29, main_v30, main_v31, main_cst_7, main_v32, main_v33]
theorem hostOps0_2_writes : (hostOps0_2 : List (HloOp τ sig (Elt F))).Forall fun op => op.writes ⊆ ((hostOps0_2_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer `hostOps0_2` does not write is after it as before it. -/
theorem W3_of (c : Dev nD) (r : Ref sig .tc) (h : r ∉ (hostOps0_2_W : List (Ref sig .tc))) :
    W3 m ρ c (Proc.devRef .tc r) = W2 m ρ c (Proc.devRef .tc r) :=
  StableHlo.after_of_writes_sub hostOps0_2 _ hostOps0_2_writes h

/-- The references `hostOps1`'s operations write. -/
abbrev hostOps1_W : List (Ref sig .tc) := [main_c_8, main_v35, main_v36, main_c_9, main_v37, main_v38, main_v39, main_v40, main_v41, main_v42, main_v43, main_v44, main_cst_10, main_v45, main_v46, main_v47, main_v48]
theorem hostOps1_writes : (hostOps1 : List (HloOp τ sig (Elt F))).Forall fun op => op.writes ⊆ ((hostOps1_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer `hostOps1` does not write is after it as before it. -/
theorem W5_of (c : Dev nD) (r : Ref sig .tc) (h : r ∉ (hostOps1_W : List (Ref sig .tc))) :
    W5 m ρ c (Proc.devRef .tc r) = W4 m ρ c (Proc.devRef .tc r) :=
  StableHlo.after_of_writes_sub hostOps1 _ hostOps1_writes h

/-- The references `hostOps2`'s operations write. -/
abbrev hostOps2_W : List (Ref sig .tc) := [main_cst_11, main_v50, main_v51]
theorem hostOps2_writes : (hostOps2 : List (HloOp τ sig (Elt F))).Forall fun op => op.writes ⊆ ((hostOps2_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer `hostOps2` does not write is after it as before it. -/
theorem W7_of (c : Dev nD) (r : Ref sig .tc) (h : r ∉ (hostOps2_W : List (Ref sig .tc))) :
    W7 m ρ c (Proc.devRef .tc r) = W6 m ρ c (Proc.devRef .tc r) :=
  StableHlo.after_of_writes_sub hostOps2 _ hostOps2_writes h

/-- The references `hostOps3`'s operations write. -/
abbrev hostOps3_W : List (Ref sig .tc) := [main_c_12, main_v53, main_v54, main_c_13, main_v55, main_v56, main_v57, main_v58, main_v59, main_v60, main_v61, main_v62, main_cst_14, main_v63, main_v64, main_v65, main_v66]
theorem hostOps3_writes : (hostOps3 : List (HloOp τ sig (Elt F))).Forall fun op => op.writes ⊆ ((hostOps3_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer `hostOps3` does not write is after it as before it. -/
theorem W9_of (c : Dev nD) (r : Ref sig .tc) (h : r ∉ (hostOps3_W : List (Ref sig .tc))) :
    W9 m ρ c (Proc.devRef .tc r) = W8 m ρ c (Proc.devRef .tc r) :=
  StableHlo.after_of_writes_sub hostOps3 _ hostOps3_writes h

/-- The references `hostOps4`'s operations write. -/
abbrev hostOps4_W : List (Ref sig .tc) := [main_cst_15, main_v68, main_v69]
theorem hostOps4_writes : (hostOps4 : List (HloOp τ sig (Elt F))).Forall fun op => op.writes ⊆ ((hostOps4_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer `hostOps4` does not write is after it as before it. -/
theorem W11_of (c : Dev nD) (r : Ref sig .tc) (h : r ∉ (hostOps4_W : List (Ref sig .tc))) :
    W11 m ρ c (Proc.devRef .tc r) = W10 m ρ c (Proc.devRef .tc r) :=
  StableHlo.after_of_writes_sub hostOps4 _ hostOps4_writes h

/-- The references `hostOps5`'s operations write. -/
abbrev hostOps5_W : List (Ref sig .tc) := [main_c_16, main_v71, main_v72, main_c_17, main_v73, main_v74, main_v75, main_v76, main_v77, main_v78, main_v79, main_v80, main_cst_18, main_v81, main_v82, main_v83, main_v84]
theorem hostOps5_writes : (hostOps5 : List (HloOp τ sig (Elt F))).Forall fun op => op.writes ⊆ ((hostOps5_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer `hostOps5` does not write is after it as before it. -/
theorem W13_of (c : Dev nD) (r : Ref sig .tc) (h : r ∉ (hostOps5_W : List (Ref sig .tc))) :
    W13 m ρ c (Proc.devRef .tc r) = W12 m ρ c (Proc.devRef .tc r) :=
  StableHlo.after_of_writes_sub hostOps5 _ hostOps5_writes h

/-- The references `hostOps6`'s operations write. -/
abbrev hostOps6_W : List (Ref sig .tc) := [main_v86]
theorem hostOps6_writes : (hostOps6 : List (HloOp τ sig (Elt F))).Forall fun op => op.writes ⊆ ((hostOps6_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer `hostOps6` does not write is after it as before it. -/
theorem W15_of (c : Dev nD) (r : Ref sig .tc) (h : r ∉ (hostOps6_W : List (Ref sig .tc))) :
    W15 m ρ c (Proc.devRef .tc r) = W14 m ρ c (Proc.devRef .tc r) :=
  StableHlo.after_of_writes_sub hostOps6 _ hostOps6_writes h

/-- The arrays region 0's windows stage. -/
abbrev region0_A : List (Ref sig .tc) := [main_arg0, main_arg2, main_v33, main_v34]
theorem region0_arrs : ∀ w : Fin cfg0.W, Pipeline.arrRef spec0 w ∈ (region0_A : List (Ref sig .tc)) := by decide
/-- A buffer region 0 does not stage is after it as before it. -/
theorem W4_of (c : Dev nD) (r : Ref sig .tc) (h : r ∉ (region0_A : List (Ref sig .tc))) :
    W4 m ρ c (Proc.devRef .tc r) = W3 m ρ c (Proc.devRef .tc r) :=
  W4_of_ne m ρ c r fun w e => h (e ▸ region0_arrs w)

/-- The arrays region 1's windows stage. -/
abbrev region1_A : List (Ref sig .tc) := [main_v47, main_v48, main_v49]
theorem region1_arrs : ∀ w : Fin cfg1.W, Pipeline.arrRef spec1 w ∈ (region1_A : List (Ref sig .tc)) := by decide
/-- A buffer region 1 does not stage is after it as before it. -/
theorem W6_of (c : Dev nD) (r : Ref sig .tc) (h : r ∉ (region1_A : List (Ref sig .tc))) :
    W6 m ρ c (Proc.devRef .tc r) = W5 m ρ c (Proc.devRef .tc r) :=
  W6_of_ne m ρ c r fun w e => h (e ▸ region1_arrs w)

/-- The arrays region 2's windows stage. -/
abbrev region2_A : List (Ref sig .tc) := [main_v49, main_arg4, main_v51, main_v52]
theorem region2_arrs : ∀ w : Fin cfg2.W, Pipeline.arrRef spec2 w ∈ (region2_A : List (Ref sig .tc)) := by decide
/-- A buffer region 2 does not stage is after it as before it. -/
theorem W8_of (c : Dev nD) (r : Ref sig .tc) (h : r ∉ (region2_A : List (Ref sig .tc))) :
    W8 m ρ c (Proc.devRef .tc r) = W7 m ρ c (Proc.devRef .tc r) :=
  W8_of_ne m ρ c r fun w e => h (e ▸ region2_arrs w)

/-- The arrays region 3's windows stage. -/
abbrev region3_A : List (Ref sig .tc) := [main_v65, main_v66, main_v67]
theorem region3_arrs : ∀ w : Fin cfg3.W, Pipeline.arrRef spec3 w ∈ (region3_A : List (Ref sig .tc)) := by decide
/-- A buffer region 3 does not stage is after it as before it. -/
theorem W10_of (c : Dev nD) (r : Ref sig .tc) (h : r ∉ (region3_A : List (Ref sig .tc))) :
    W10 m ρ c (Proc.devRef .tc r) = W9 m ρ c (Proc.devRef .tc r) :=
  W10_of_ne m ρ c r fun w e => h (e ▸ region3_arrs w)

/-- The arrays region 4's windows stage. -/
abbrev region4_A : List (Ref sig .tc) := [main_v67, main_arg6, main_v69, main_v70]
theorem region4_arrs : ∀ w : Fin cfg4.W, Pipeline.arrRef spec4 w ∈ (region4_A : List (Ref sig .tc)) := by decide
/-- A buffer region 4 does not stage is after it as before it. -/
theorem W12_of (c : Dev nD) (r : Ref sig .tc) (h : r ∉ (region4_A : List (Ref sig .tc))) :
    W12 m ρ c (Proc.devRef .tc r) = W11 m ρ c (Proc.devRef .tc r) :=
  W12_of_ne m ρ c r fun w e => h (e ▸ region4_arrs w)

/-- The arrays region 5's windows stage. -/
abbrev region5_A : List (Ref sig .tc) := [main_v83, main_v84, main_v85]
theorem region5_arrs : ∀ w : Fin cfg5.W, Pipeline.arrRef spec5 w ∈ (region5_A : List (Ref sig .tc)) := by decide
/-- A buffer region 5 does not stage is after it as before it. -/
theorem W14_of (c : Dev nD) (r : Ref sig .tc) (h : r ∉ (region5_A : List (Ref sig .tc))) :
    W14 m ρ c (Proc.devRef .tc r) = W13 m ρ c (Proc.devRef .tc r) :=
  W14_of_ne m ρ c r fun w e => h (e ▸ region5_arrs w)

/-- The arrays region 6's windows stage. -/
abbrev region6_A : List (Ref sig .tc) := [main_v85, main_arg8, main_v86, main_v87]
theorem region6_arrs : ∀ w : Fin cfg6.W, Pipeline.arrRef spec6 w ∈ (region6_A : List (Ref sig .tc)) := by decide
/-- A buffer region 6 does not stage is after it as before it. -/
theorem W16_of (c : Dev nD) (r : Ref sig .tc) (h : r ∉ (region6_A : List (Ref sig .tc))) :
    W16 m ρ c (Proc.devRef .tc r) = W15 m ρ c (Proc.devRef .tc r) :=
  W16_of_ne m ρ c r fun w e => h (e ▸ region6_arrs w)

end Cert.KernelIdeal.Carry

end
-- ==== Proof.Norm.lean ====
import proofs.«148064_j9405978378565_1_alg».proof.Proof.Gen.KernelIdeal.Frame
import proofs.«148064_j9405978378565_1_alg».proof.Proof.RefRead
import proofs.«148064_j9405978378565_1_alg».proof.Proof.Carry
import Idealize.ShloMosaic.Lib.StableHlo.Run

set_option maxRecDepth 16384

noncomputable section

namespace Cert.KernelIdeal.Norm

open Cert.KernelIdeal Cert.KernelIdeal.Gen Idealize.ShloMosaic Idealize.ShloMosaic.TcCoe Idealize.SL.Sem Idealize.ShloMosaic.StableHlo
open Cert.ReferenceIdeal.ReadP

variable {F : FTy → Type} [FloatOps F]
variable (m : (ℓ : Loc nD τ sig) → Buf (Elt F) ℓ) (ρ : Dev nD → PrngReg)

/-!
  The graph's side of the computation, which the two programs spell with the same host operations: the source and
  destination ids with the self loops appended, and the per-edge normalisation (the inverse square roots of the degrees
  gathered at both ends and multiplied). The kernel's program computes them before its first region; at that region's
  entry they are the reference's stages of the same name, as functions of the edge list alone.
-/

set_option maxHeartbeats 4000000 in
/-- The source ids, self loops appended, at the first region's entry. -/
theorem W3_v3 (c : Dev nD) : W3 m ρ c (Proc.devRef .tc main_v3) = val_main_v3 (F := F) (m ((c : Thread nD τ).loc main_arg1)) := by
  refine ((Carry.W3_of m ρ c main_v3 (by decide)).trans <| (Carry.W2_of m ρ c main_v3 (by decide))).trans ?_
  show StableHlo.after hostOps0 (W0 m ρ c) (Proc.devRef .tc main_v3) = _
  after_results_simp
  rfl

set_option maxHeartbeats 4000000 in
/-- The destination ids, self loops appended, at the first region's entry. -/
theorem W3_v6 (c : Dev nD) : W3 m ρ c (Proc.devRef .tc main_v6) = val_main_v6 (F := F) (m ((c : Thread nD τ).loc main_arg1)) := by
  refine ((Carry.W3_of m ρ c main_v6 (by decide)).trans <| (Carry.W2_of m ρ c main_v6 (by decide))).trans ?_
  show StableHlo.after hostOps0 (W0 m ρ c) (Proc.devRef .tc main_v6) = _
  after_results_simp
  rfl

set_option maxHeartbeats 40000000 in
/-- The per-edge normalisation at the first region's entry. -/
theorem W3_v31 (c : Dev nD) : W3 m ρ c (Proc.devRef .tc main_v31) = val_main_v31 (F := F) (m ((c : Thread nD τ).loc main_arg1)) := by
  show StableHlo.after hostOps0_2 (StableHlo.after hostOps0_1 (StableHlo.after hostOps0 (W0 m ρ c))) (Proc.devRef .tc main_v31) = _
  after_results_simp
  rfl

end Cert.KernelIdeal.Norm

end
-- ==== Proof.Host.lean ====
import proofs.«148064_j9405978378565_1_alg».proof.Proof.Gen.KernelIdeal.Frame
import proofs.«148064_j9405978378565_1_alg».proof.Proof.RefRead
import proofs.«148064_j9405978378565_1_alg».proof.Proof.Carry
import proofs.«148064_j9405978378565_1_alg».proof.Proof.Norm
import Idealize.ShloMosaic.Lib.Pipeline.Value
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo
open Cert.ReferenceIdeal.ReadP

variable {F : FTy → Type} [FloatOps F]
variable (m : (ℓ : Loc nD τ sig) → Buf (Elt F) ℓ) (ρ : Dev nD → PrngReg)

/-!
  What the host operations between the regions compute, at any float family: each aggregation over the edges as the
  reference's stage of the same operations (given that the region before it left the reference's matrix product), each
  bias vector reshaped to the one-row array a region stages, the zero rows, and the arguments a region stages, which
  nothing before it has written.
-/

set_option maxHeartbeats 4000000 in
/-- The aggregation over the edges (gather the source rows, scale by the edge's normalisation, add into the destination
    rows) that the host operations before the next region compute from the region's output is the reference's stage. -/
theorem W5_v47 (c : Dev nD)
    (hlin : W4 m ρ c (Proc.devRef .tc main_v34) = val_main_v32 (F := F) (m ((c : Thread nD τ).loc main_arg0)) (m ((c : Thread nD τ).loc main_arg2))) :
    W5 m ρ c (Proc.devRef .tc main_v47) = val_main_v45 (F := F) (m ((c : Thread nD τ).loc main_arg0)) (m ((c : Thread nD τ).loc main_arg1)) (m ((c : Thread nD τ).loc main_arg2)) := by
  have h3 : W4 m ρ c (Proc.devRef .tc main_v3) = val_main_v3 (F := F) (m ((c : Thread nD τ).loc main_arg1)) :=
    ((Carry.W4_of m ρ c main_v3 (by decide))).trans (Norm.W3_v3 m ρ c)
  have h6 : W4 m ρ c (Proc.devRef .tc main_v6) = val_main_v6 (F := F) (m ((c : Thread nD τ).loc main_arg1)) :=
    ((Carry.W4_of m ρ c main_v6 (by decide))).trans (Norm.W3_v6 m ρ c)
  have h31 : W4 m ρ c (Proc.devRef .tc main_v31) = val_main_v31 (F := F) (m ((c : Thread nD τ).loc main_arg1)) :=
    ((Carry.W4_of m ρ c main_v31 (by decide))).trans (Norm.W3_v31 m ρ c)
  show StableHlo.after hostOps1 (W4 m ρ c) (Proc.devRef .tc main_v47) = _
  after_results_simp
  rw [hlin, h3, h6, h31]
  rfl

set_option maxHeartbeats 4000000 in
/-- The aggregation over the edges (gather the source rows, scale by the edge's normalisation, add into the destination
    rows) that the host operations before the next region compute from the region's output is the reference's stage. -/
theorem W9_v65 (c : Dev nD)
    (hlin : W8 m ρ c (Proc.devRef .tc main_v52) = val_main_v50 (F := F) (m ((c : Thread nD τ).loc main_arg0)) (m ((c : Thread nD τ).loc main_arg1)) (m ((c : Thread nD τ).loc main_arg2)) (m ((c : Thread nD τ).loc main_arg3)) (m ((c : Thread nD τ).loc main_arg4))) :
    W9 m ρ c (Proc.devRef .tc main_v65) = val_main_v63 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  have h3 : W8 m ρ c (Proc.devRef .tc main_v3) = val_main_v3 (F := F) (m ((c : Thread nD τ).loc main_arg1)) :=
    ((Carry.W8_of m ρ c main_v3 (by decide)).trans <| (Carry.W7_of m ρ c main_v3 (by decide)).trans <| (Carry.W6_of m ρ c main_v3 (by decide)).trans <| (Carry.W5_of m ρ c main_v3 (by decide)).trans <| (Carry.W4_of m ρ c main_v3 (by decide))).trans (Norm.W3_v3 m ρ c)
  have h6 : W8 m ρ c (Proc.devRef .tc main_v6) = val_main_v6 (F := F) (m ((c : Thread nD τ).loc main_arg1)) :=
    ((Carry.W8_of m ρ c main_v6 (by decide)).trans <| (Carry.W7_of m ρ c main_v6 (by decide)).trans <| (Carry.W6_of m ρ c main_v6 (by decide)).trans <| (Carry.W5_of m ρ c main_v6 (by decide)).trans <| (Carry.W4_of m ρ c main_v6 (by decide))).trans (Norm.W3_v6 m ρ c)
  have h31 : W8 m ρ c (Proc.devRef .tc main_v31) = val_main_v31 (F := F) (m ((c : Thread nD τ).loc main_arg1)) :=
    ((Carry.W8_of m ρ c main_v31 (by decide)).trans <| (Carry.W7_of m ρ c main_v31 (by decide)).trans <| (Carry.W6_of m ρ c main_v31 (by decide)).trans <| (Carry.W5_of m ρ c main_v31 (by decide)).trans <| (Carry.W4_of m ρ c main_v31 (by decide))).trans (Norm.W3_v31 m ρ c)
  show StableHlo.after hostOps3 (W8 m ρ c) (Proc.devRef .tc main_v65) = _
  after_results_simp
  rw [hlin, h3, h6, h31]
  rfl

set_option maxHeartbeats 4000000 in
/-- The aggregation over the edges (gather the source rows, scale by the edge's normalisation, add into the destination
    rows) that the host operations before the next region compute from the region's output is the reference's stage. -/
theorem W13_v83 (c : Dev nD)
    (hlin : W12 m ρ c (Proc.devRef .tc main_v70) = val_main_v68 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W13 m ρ c (Proc.devRef .tc main_v83) = val_main_v81 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h3 : W12 m ρ c (Proc.devRef .tc main_v3) = val_main_v3 (F := F) (m ((c : Thread nD τ).loc main_arg1)) :=
    ((Carry.W12_of m ρ c main_v3 (by decide)).trans <| (Carry.W11_of m ρ c main_v3 (by decide)).trans <| (Carry.W10_of m ρ c main_v3 (by decide)).trans <| (Carry.W9_of m ρ c main_v3 (by decide)).trans <| (Carry.W8_of m ρ c main_v3 (by decide)).trans <| (Carry.W7_of m ρ c main_v3 (by decide)).trans <| (Carry.W6_of m ρ c main_v3 (by decide)).trans <| (Carry.W5_of m ρ c main_v3 (by decide)).trans <| (Carry.W4_of m ρ c main_v3 (by decide))).trans (Norm.W3_v3 m ρ c)
  have h6 : W12 m ρ c (Proc.devRef .tc main_v6) = val_main_v6 (F := F) (m ((c : Thread nD τ).loc main_arg1)) :=
    ((Carry.W12_of m ρ c main_v6 (by decide)).trans <| (Carry.W11_of m ρ c main_v6 (by decide)).trans <| (Carry.W10_of m ρ c main_v6 (by decide)).trans <| (Carry.W9_of m ρ c main_v6 (by decide)).trans <| (Carry.W8_of m ρ c main_v6 (by decide)).trans <| (Carry.W7_of m ρ c main_v6 (by decide)).trans <| (Carry.W6_of m ρ c main_v6 (by decide)).trans <| (Carry.W5_of m ρ c main_v6 (by decide)).trans <| (Carry.W4_of m ρ c main_v6 (by decide))).trans (Norm.W3_v6 m ρ c)
  have h31 : W12 m ρ c (Proc.devRef .tc main_v31) = val_main_v31 (F := F) (m ((c : Thread nD τ).loc main_arg1)) :=
    ((Carry.W12_of m ρ c main_v31 (by decide)).trans <| (Carry.W11_of m ρ c main_v31 (by decide)).trans <| (Carry.W10_of m ρ c main_v31 (by decide)).trans <| (Carry.W9_of m ρ c main_v31 (by decide)).trans <| (Carry.W8_of m ρ c main_v31 (by decide)).trans <| (Carry.W7_of m ρ c main_v31 (by decide)).trans <| (Carry.W6_of m ρ c main_v31 (by decide)).trans <| (Carry.W5_of m ρ c main_v31 (by decide)).trans <| (Carry.W4_of m ρ c main_v31 (by decide))).trans (Norm.W3_v31 m ρ c)
  show StableHlo.after hostOps5 (W12 m ρ c) (Proc.devRef .tc main_v83) = _
  after_results_simp
  rw [hlin, h3, h6, h31]
  rfl

set_option maxHeartbeats 4000000 in
/-- The bias vector as the one-row array the next region stages is the reference's one-row broadcast of it. -/
theorem W5_v48 (c : Dev nD) :
    W5 m ρ c (Proc.devRef .tc main_v48) = val_main_v46 (F := F) (m ((c : Thread nD τ).loc main_arg3)) := by
  have ha : W4 m ρ c (Proc.devRef .tc main_arg3) = (m ((c : Thread nD τ).loc main_arg3)) :=
    ((Carry.W4_of m ρ c main_arg3 (by decide)).trans <| (Carry.W3_of m ρ c main_arg3 (by decide)).trans <| (Carry.W2_of m ρ c main_arg3 (by decide)).trans <| (Carry.W1_of m ρ c main_arg3 (by decide))).trans rfl
  show StableHlo.after hostOps1 (W4 m ρ c) (Proc.devRef .tc main_v48) = _
  after_results_simp
  rw [ha]
  funext j
  rw [val_main_v46_apply]
  refine (shapeCast_addUnit_apply ![128] (m ((c : Thread nD τ).loc main_arg3)) _ j).trans ?_
  exact congrArg (m ((c : Thread nD τ).loc main_arg3)) (funext fun a => match a with | ⟨0, _⟩ => rfl)

set_option maxHeartbeats 4000000 in
/-- The bias vector as the one-row array the next region stages is the reference's one-row broadcast of it. -/
theorem W9_v66 (c : Dev nD) :
    W9 m ρ c (Proc.devRef .tc main_v66) = val_main_v64 (F := F) (m ((c : Thread nD τ).loc main_arg5)) := by
  have ha : W8 m ρ c (Proc.devRef .tc main_arg5) = (m ((c : Thread nD τ).loc main_arg5)) :=
    ((Carry.W8_of m ρ c main_arg5 (by decide)).trans <| (Carry.W7_of m ρ c main_arg5 (by decide)).trans <| (Carry.W6_of m ρ c main_arg5 (by decide)).trans <| (Carry.W5_of m ρ c main_arg5 (by decide)).trans <| (Carry.W4_of m ρ c main_arg5 (by decide)).trans <| (Carry.W3_of m ρ c main_arg5 (by decide)).trans <| (Carry.W2_of m ρ c main_arg5 (by decide)).trans <| (Carry.W1_of m ρ c main_arg5 (by decide))).trans rfl
  show StableHlo.after hostOps3 (W8 m ρ c) (Proc.devRef .tc main_v66) = _
  after_results_simp
  rw [ha]
  funext j
  rw [val_main_v64_apply]
  refine (shapeCast_addUnit_apply ![128] (m ((c : Thread nD τ).loc main_arg5)) _ j).trans ?_
  exact congrArg (m ((c : Thread nD τ).loc main_arg5)) (funext fun a => match a with | ⟨0, _⟩ => rfl)

set_option maxHeartbeats 4000000 in
/-- The bias vector as the one-row array the next region stages is the reference's one-row broadcast of it. -/
theorem W13_v84 (c : Dev nD) :
    W13 m ρ c (Proc.devRef .tc main_v84) = val_main_v82 (F := F) (m ((c : Thread nD τ).loc main_arg7)) := by
  have ha : W12 m ρ c (Proc.devRef .tc main_arg7) = (m ((c : Thread nD τ).loc main_arg7)) :=
    ((Carry.W12_of m ρ c main_arg7 (by decide)).trans <| (Carry.W11_of m ρ c main_arg7 (by decide)).trans <| (Carry.W10_of m ρ c main_arg7 (by decide)).trans <| (Carry.W9_of m ρ c main_arg7 (by decide)).trans <| (Carry.W8_of m ρ c main_arg7 (by decide)).trans <| (Carry.W7_of m ρ c main_arg7 (by decide)).trans <| (Carry.W6_of m ρ c main_arg7 (by decide)).trans <| (Carry.W5_of m ρ c main_arg7 (by decide)).trans <| (Carry.W4_of m ρ c main_arg7 (by decide)).trans <| (Carry.W3_of m ρ c main_arg7 (by decide)).trans <| (Carry.W2_of m ρ c main_arg7 (by decide)).trans <| (Carry.W1_of m ρ c main_arg7 (by decide))).trans rfl
  show StableHlo.after hostOps5 (W12 m ρ c) (Proc.devRef .tc main_v84) = _
  after_results_simp
  rw [ha]
  funext j
  rw [val_main_v82_apply]
  refine (shapeCast_addUnit_apply ![64] (m ((c : Thread nD τ).loc main_arg7)) _ j).trans ?_
  exact congrArg (m ((c : Thread nD τ).loc main_arg7)) (funext fun a => match a with | ⟨0, _⟩ => rfl)

set_option maxHeartbeats 4000000 in
/-- The bias vector as the one-row array the next region stages is the reference's one-row broadcast of it. -/
theorem W15_v86 (c : Dev nD) :
    W15 m ρ c (Proc.devRef .tc main_v86) = val_main_v86 (F := F) (m ((c : Thread nD τ).loc main_arg9)) := by
  have ha : W14 m ρ c (Proc.devRef .tc main_arg9) = (m ((c : Thread nD τ).loc main_arg9)) :=
    ((Carry.W14_of m ρ c main_arg9 (by decide)).trans <| (Carry.W13_of m ρ c main_arg9 (by decide)).trans <| (Carry.W12_of m ρ c main_arg9 (by decide)).trans <| (Carry.W11_of m ρ c main_arg9 (by decide)).trans <| (Carry.W10_of m ρ c main_arg9 (by decide)).trans <| (Carry.W9_of m ρ c main_arg9 (by decide)).trans <| (Carry.W8_of m ρ c main_arg9 (by decide)).trans <| (Carry.W7_of m ρ c main_arg9 (by decide)).trans <| (Carry.W6_of m ρ c main_arg9 (by decide)).trans <| (Carry.W5_of m ρ c main_arg9 (by decide)).trans <| (Carry.W4_of m ρ c main_arg9 (by decide)).trans <| (Carry.W3_of m ρ c main_arg9 (by decide)).trans <| (Carry.W2_of m ρ c main_arg9 (by decide)).trans <| (Carry.W1_of m ρ c main_arg9 (by decide))).trans rfl
  show StableHlo.after hostOps6 (W14 m ρ c) (Proc.devRef .tc main_v86) = _
  after_results_simp
  rw [ha]
  funext j
  rw [val_main_v86_apply]
  refine (shapeCast_addUnit_apply ![1] (m ((c : Thread nD τ).loc main_arg9)) _ j).trans ?_
  exact congrArg (m ((c : Thread nD τ).loc main_arg9)) (funext fun a => match a with
    | ⟨0, _⟩ => Fin.ext (by show (j 1).val = 0; have h : (j 1).val < 1 := (j 1).isLt; omega))

set_option maxHeartbeats 4000000 in
/-- The bias row the matrix-product region is given is the zero row. -/
theorem W3_v33 (c : Dev nD) (j : S1x128.Idx) :
    (W3 m ρ c (Proc.devRef .tc main_v33) : S1x128.Idx → Elt F .f32) j = FloatOps.ofBits .f32 0x00000000#32 := by
  show (StableHlo.after hostOps0_2 (W2 m ρ c) (Proc.devRef .tc main_v33) : S1x128.Idx → Elt F .f32) j = _
  after_results_simp
  rfl

set_option maxHeartbeats 4000000 in
/-- The bias row the matrix-product region is given is the zero row. -/
theorem W7_v51 (c : Dev nD) (j : S1x128.Idx) :
    (W7 m ρ c (Proc.devRef .tc main_v51) : S1x128.Idx → Elt F .f32) j = FloatOps.ofBits .f32 0x00000000#32 := by
  show (StableHlo.after hostOps2 (W6 m ρ c) (Proc.devRef .tc main_v51) : S1x128.Idx → Elt F .f32) j = _
  after_results_simp
  rfl

set_option maxHeartbeats 4000000 in
/-- The bias row the matrix-product region is given is the zero row. -/
theorem W11_v69 (c : Dev nD) (j : S1x64.Idx) :
    (W11 m ρ c (Proc.devRef .tc main_v69) : S1x64.Idx → Elt F .f32) j = FloatOps.ofBits .f32 0x00000000#32 := by
  show (StableHlo.after hostOps4 (W10 m ρ c) (Proc.devRef .tc main_v69) : S1x64.Idx → Elt F .f32) j = _
  after_results_simp
  rfl

/-- Argument 0 is as launched when the region that stages it is entered. -/
theorem W3_arg0 (c : Dev nD) : W3 m ρ c (Proc.devRef .tc main_arg0) = (m ((c : Thread nD τ).loc main_arg0)) :=
  ((Carry.W3_of m ρ c main_arg0 (by decide)).trans <| (Carry.W2_of m ρ c main_arg0 (by decide)).trans <| (Carry.W1_of m ρ c main_arg0 (by decide))).trans rfl

/-- Argument 2 is as launched when the region that stages it is entered. -/
theorem W3_arg2 (c : Dev nD) : W3 m ρ c (Proc.devRef .tc main_arg2) = (m ((c : Thread nD τ).loc main_arg2)) :=
  ((Carry.W3_of m ρ c main_arg2 (by decide)).trans <| (Carry.W2_of m ρ c main_arg2 (by decide)).trans <| (Carry.W1_of m ρ c main_arg2 (by decide))).trans rfl

/-- Argument 4 is as launched when the region that stages it is entered. -/
theorem W7_arg4 (c : Dev nD) : W7 m ρ c (Proc.devRef .tc main_arg4) = (m ((c : Thread nD τ).loc main_arg4)) :=
  ((Carry.W7_of m ρ c main_arg4 (by decide)).trans <| (Carry.W6_of m ρ c main_arg4 (by decide)).trans <| (Carry.W5_of m ρ c main_arg4 (by decide)).trans <| (Carry.W4_of m ρ c main_arg4 (by decide)).trans <| (Carry.W3_of m ρ c main_arg4 (by decide)).trans <| (Carry.W2_of m ρ c main_arg4 (by decide)).trans <| (Carry.W1_of m ρ c main_arg4 (by decide))).trans rfl

/-- Argument 6 is as launched when the region that stages it is entered. -/
theorem W11_arg6 (c : Dev nD) : W11 m ρ c (Proc.devRef .tc main_arg6) = (m ((c : Thread nD τ).loc main_arg6)) :=
  ((Carry.W11_of m ρ c main_arg6 (by decide)).trans <| (Carry.W10_of m ρ c main_arg6 (by decide)).trans <| (Carry.W9_of m ρ c main_arg6 (by decide)).trans <| (Carry.W8_of m ρ c main_arg6 (by decide)).trans <| (Carry.W7_of m ρ c main_arg6 (by decide)).trans <| (Carry.W6_of m ρ c main_arg6 (by decide)).trans <| (Carry.W5_of m ρ c main_arg6 (by decide)).trans <| (Carry.W4_of m ρ c main_arg6 (by decide)).trans <| (Carry.W3_of m ρ c main_arg6 (by decide)).trans <| (Carry.W2_of m ρ c main_arg6 (by decide)).trans <| (Carry.W1_of m ρ c main_arg6 (by decide))).trans rfl

/-- Argument 8 is as launched when the region that stages it is entered. -/
theorem W15_arg8 (c : Dev nD) : W15 m ρ c (Proc.devRef .tc main_arg8) = (m ((c : Thread nD τ).loc main_arg8)) :=
  ((Carry.W15_of m ρ c main_arg8 (by decide)).trans <| (Carry.W14_of m ρ c main_arg8 (by decide)).trans <| (Carry.W13_of m ρ c main_arg8 (by decide)).trans <| (Carry.W12_of m ρ c main_arg8 (by decide)).trans <| (Carry.W11_of m ρ c main_arg8 (by decide)).trans <| (Carry.W10_of m ρ c main_arg8 (by decide)).trans <| (Carry.W9_of m ρ c main_arg8 (by decide)).trans <| (Carry.W8_of m ρ c main_arg8 (by decide)).trans <| (Carry.W7_of m ρ c main_arg8 (by decide)).trans <| (Carry.W6_of m ρ c main_arg8 (by decide)).trans <| (Carry.W5_of m ρ c main_arg8 (by decide)).trans <| (Carry.W4_of m ρ c main_arg8 (by decide)).trans <| (Carry.W3_of m ρ c main_arg8 (by decide)).trans <| (Carry.W2_of m ρ c main_arg8 (by decide)).trans <| (Carry.W1_of m ρ c main_arg8 (by decide))).trans rfl

end Cert.KernelIdeal.Host

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.Region0.lean ====
/- (run from the unit directory; a layout of the template named first, every «TOKEN» in it replaced by the VALUE given) -/
import proofs.«148064_j9405978378565_1_alg».proof.Proof.Gen.KernelIdeal.Frame
import proofs.«148064_j9405978378565_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What region 0 leaves in its output array, as one function of the arrays it finds: row `i 0` of the features
    times column `i 1` of the weights, plus the bias row's entry of that column. -/
def G (x : S50000x128.Idx → EReal) (w : S128x128.Idx → EReal) (b : S1x128.Idx → EReal) : S50000x128.Idx → EReal :=
  fun i => (∑ k : Fin 128, x (ix2 (i 0) k) * w (ix2 k (i 1))) + b (ix2 0 (i 1))

/-- The body's value at row `p`, column `q` of its block: a change of float format is the identity over the
    extended reals, and the product into the zero accumulator is the plain sum over the contracted axis. -/
theorem pay (x0 : Vec Ideal S5000x128 .f32) (x1 : Vec Ideal S128x128 .f32) (x2 : Vec Ideal S1x128 .f32) (p : Fin 5000) (q : Fin 128) :
    k0_pay1 x0 x1 x2 (ix2 p q) = (∑ k : Fin 128, x0 (ix2 p k) * x1 (ix2 k q)) + x2 (ix2 0 q) := by
  have hq : q.val < 128 := q.isLt
  unfold k0_pay1
  show matmul (F := Ideal) dot_S5000x128_S128x128_S5000x128_1_0_0_1_n_n none (truncf .bf16 x0 bitsLt_bf16_f32) (truncf .bf16 x1 bitsLt_bf16_f32) (constant (F := Ideal) S5000x128 .f32 0x00000000#32) (ix2 p q)
      + broadcastTo S5000x128 (shapeCast S1x128 x2 shapeCasts_S1x128_S1x128) broadcasts_S1x128_S5000x128 (ix2 p q) = _
  simp only [shapeCast_self]
  rw [broadcastTo_apply x2 broadcasts_S1x128_S5000x128 (ix2 p q) (ix2 0 q) (fun a => match a with
    | ⟨0, _⟩ => by show (0 : Nat) = if (1 : Nat) = 1 then 0 else _; rw [if_pos rfl]
    | ⟨1, _⟩ => by show q.val = if (128 : Nat) = 1 then 0 else q.val; split_ifs <;> omega)]
  refine congrArg (· + x2 (ix2 0 q)) ?_
  exact Cert.Lib.PlainDot.matmul_zero_apply (M := 5000) (K := 128) (N := 128) none (truncf .bf16 x0 bitsLt_bf16_f32) (truncf .bf16 x1 bitsLt_bf16_f32) p q

/-- The printed index maps over the grid: feature blocks move down the rows with the point; the weights and the
    bias row stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `G` of the arrays as the region finds them. -/
theorem flushed_eq (c : Dev nD) (t : Fin cfg0.N) :
    (dat0 V c).flushed 3 t = ((cfg0.win 3).blk t).view.read (Elt Ideal) (G (V c main_arg0) (V c main_arg2) (V c main_v33)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  obtain ⟨e0, e1, e2, e3, e4, e5, e6, e7⟩ := idx_facts t
  funext j
  show k0_pay1 (iblk0 V c 0 t) (iblk0 V c 1 t) (iblk0 V c 2 t) j = G (V c main_arg0) (V c main_arg2) (V c main_v33) (((cfg0.win 3).blk t).view.emb j)
  obtain ⟨p, q, rfl⟩ : ∃ (p : Fin 5000) (q : Fin 128), j = ix2 p q := ⟨j 0, j 1, eq_ix2 j⟩
  have hq : q.val < 128 := q.isLt
  refine (pay (iblk0 V c 0 t) (iblk0 V c 1 t) (iblk0 V c 2 t) p q).trans ?_
  have h0 : ∀ k : Fin 128, iblk0 V c 0 t (ix2 p k) = V c main_arg0 (ix2 ((((cfg0.win 3).blk t).view.emb (ix2 p q)) 0) k) := fun k => by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  have h1 : ∀ k : Fin 128, iblk0 V c 1 t (ix2 k q) = V c main_arg2 (ix2 k ((((cfg0.win 3).blk t).view.emb (ix2 p q)) 1)) := fun k => by
    show V c main_arg2 (((cfg0.win 1).blk t).view.emb (ix2 k q)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  have h2 : iblk0 V c 2 t (ix2 0 q) = V c main_v33 (ix2 0 ((((cfg0.win 3).blk t).view.emb (ix2 p q)) 1)) := by
    show V c main_v33 (((cfg0.win 2).blk t).view.emb (ix2 0 q)) = _
    refine congrArg (V c main_v33) (funext fun a => Fin.ext ?_)
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega
  rw [h2, Finset.sum_congr rfl fun k _ => by rw [h0 k, h1 k]]; rfl

/-- An index of the array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v34).slice (win0_3.rect t)).set ↔ _
  rw [View.set_slice_whole, Rect.mem_set_unit]
  exact Iff.rfl

/-- Row `r` lies in the block of point `r / 5000`: the ten blocks of 5000 rows tile the 50000 rows. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨e0, e1, e2, e3, e4, e5, e6, e7⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- After the region its output array is that function, whole. -/
theorem arr (c : Dev nD) : (dat0 V c).arrAt 3 cfg0.N = G (V c main_arg0) (V c main_arg2) (V c main_v33) :=
  (dat0 V c).arrAt_eq_of_cover 3 (G (V c main_arg0) (V c main_arg2) (V c main_v33)) (fun t _ => flushed_eq V c t) cover

end Cert.KernelIdeal.Region0

end
-- ==== Proof.Region1.lean ====
/- (run from the unit directory; a layout of the template named first, every «TOKEN» in it replaced by the VALUE given) -/
import proofs.«148064_j9405978378565_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What region 1 leaves in its output array, as one function of the arrays it finds: each entry of the aggregated
    features plus the bias row's entry of its column, clamped below at zero. -/
def G (x : S50000x128.Idx → EReal) (b : S1x128.Idx → EReal) : S50000x128.Idx → EReal :=
  fun i => max (x i + b (ix2 0 (i 1))) (Ideal.ofBits .f32 0x00000000#32)

/-- The bias row, spread over the rows of a block of features and added to it, clamped below at zero: the body's
    value at row `p`, column `q` of its block. -/
theorem pay (x0 : Vec Ideal S5000x128 .f32) (x1 : Vec Ideal S1x128 .f32) (p : Fin 5000) (q : Fin 128) :
    k1_pay1 x0 x1 (ix2 p q) = max (x0 (ix2 p q) + x1 (ix2 0 q)) (Ideal.ofBits .f32 0x00000000#32) := by
  unfold k1_pay1
  show max (shapeCast S5000x128 x0 shapeCasts_S5000x128_S5000x128 (ix2 p q)
      + broadcastTo S5000x128 (shapeCast S1x128 x1 shapeCasts_S1x128_S1x128) broadcasts_S1x128_S5000x128 (ix2 p q)) _ = _
  rw [shapeCast_self, shapeCast_self]
  rw [broadcastTo_apply x1 broadcasts_S1x128_S5000x128 (ix2 p q) (ix2 0 q) (fun a => match a with
    | ⟨0, _⟩ => by show (0 : Nat) = if (1 : Nat) = 1 then 0 else _; rw [if_pos rfl]
    | ⟨1, _⟩ => by show q.val = if (128 : Nat) = 1 then 0 else q.val; rw [if_neg (by decide)])]
  rfl

/-- The printed index maps over the grid: feature blocks move down the rows with the point, the bias row stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem flushed_eq (c : Dev nD) (t : Fin cfg1.N) :
    (dat1 V c).flushed 2 t = ((cfg1.win 2).blk t).view.read (Elt Ideal) (G (V c main_v47) (V c main_v48)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx_facts t
  funext j
  show k1_pay1 (iblk1 V c 0 t) (iblk1 V c 1 t) j = G (V c main_v47) (V c main_v48) (((cfg1.win 2).blk t).view.emb j)
  obtain ⟨p, q, rfl⟩ : ∃ (p : Fin 5000) (q : Fin 128), j = ix2 p q := ⟨j 0, j 1, eq_ix2 j⟩
  refine (pay (iblk1 V c 0 t) (iblk1 V c 1 t) p q).trans ?_
  have h0 : iblk1 V c 0 t (ix2 p q) = V c main_v47 (((cfg1.win 2).blk t).view.emb (ix2 p q)) := by
    show V c main_v47 (((cfg1.win 0).blk t).view.emb (ix2 p q)) = _
    refine congrArg (V c main_v47) (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have h1 : iblk1 V c 1 t (ix2 0 q) = V c main_v48 (ix2 0 ((((cfg1.win 2).blk t).view.emb (ix2 p q)) 1)) := by
    show V c main_v48 (((cfg1.win 1).blk t).view.emb (ix2 0 q)) = _
    refine congrArg (V c main_v48) (funext fun a => Fin.ext ?_)
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [h0, h1]; rfl

/-- An index of the array is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v49).slice (win1_2.rect t)).set ↔ _
  rw [View.set_slice_whole, Rect.mem_set_unit]
  exact Iff.rfl

/-- Row `r` lies in the block of point `r / 5000`: the ten blocks of 5000 rows tile the 50000 rows. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨e0, e1, e2, e3, e4, e5⟩ := idx_facts t
  have ht : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region its output array is that function, whole. -/
theorem arr (c : Dev nD) : (dat1 V c).arrAt 2 cfg1.N = G (V c main_v47) (V c main_v48) :=
  (dat1 V c).arrAt_eq_of_cover 2 (G (V c main_v47) (V c main_v48)) (fun t _ => flushed_eq V c t) cover

end Cert.KernelIdeal.Region1

end
-- ==== Proof.Region2.lean ====
/- (run from the unit directory; a layout of the template named first, every «TOKEN» in it replaced by the VALUE given) -/
import proofs.«148064_j9405978378565_1_alg».proof.Proof.Gen.KernelIdeal.Frame
import proofs.«148064_j9405978378565_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What region 2 leaves in its output array, as one function of the arrays it finds: row `i 0` of the features
    times column `i 1` of the weights, plus the bias row's entry of that column. -/
def G (x : S50000x128.Idx → EReal) (w : S128x128.Idx → EReal) (b : S1x128.Idx → EReal) : S50000x128.Idx → EReal :=
  fun i => (∑ k : Fin 128, x (ix2 (i 0) k) * w (ix2 k (i 1))) + b (ix2 0 (i 1))

/-- The body's value at row `p`, column `q` of its block: a change of float format is the identity over the
    extended reals, and the product into the zero accumulator is the plain sum over the contracted axis. -/
theorem pay (x0 : Vec Ideal S5000x128 .f32) (x1 : Vec Ideal S128x128 .f32) (x2 : Vec Ideal S1x128 .f32) (p : Fin 5000) (q : Fin 128) :
    k2_pay1 x0 x1 x2 (ix2 p q) = (∑ k : Fin 128, x0 (ix2 p k) * x1 (ix2 k q)) + x2 (ix2 0 q) := by
  have hq : q.val < 128 := q.isLt
  unfold k2_pay1
  show matmul (F := Ideal) dot_S5000x128_S128x128_S5000x128_1_0_0_1_n_n none (truncf .bf16 (shapeCast S5000x128 x0 shapeCasts_S5000x128_S5000x128) bitsLt_bf16_f32) (truncf .bf16 x1 bitsLt_bf16_f32) (constant (F := Ideal) S5000x128 .f32 0x00000000#32) (ix2 p q)
      + broadcastTo S5000x128 (shapeCast S1x128 x2 shapeCasts_S1x128_S1x128) broadcasts_S1x128_S5000x128 (ix2 p q) = _
  simp only [shapeCast_self]
  rw [broadcastTo_apply x2 broadcasts_S1x128_S5000x128 (ix2 p q) (ix2 0 q) (fun a => match a with
    | ⟨0, _⟩ => by show (0 : Nat) = if (1 : Nat) = 1 then 0 else _; rw [if_pos rfl]
    | ⟨1, _⟩ => by show q.val = if (128 : Nat) = 1 then 0 else q.val; split_ifs <;> omega)]
  refine congrArg (· + x2 (ix2 0 q)) ?_
  exact Cert.Lib.PlainDot.matmul_zero_apply (M := 5000) (K := 128) (N := 128) none (truncf .bf16 x0 bitsLt_bf16_f32) (truncf .bf16 x1 bitsLt_bf16_f32) p q

/-- The printed index maps over the grid: feature blocks move down the rows with the point; the weights and the
    bias row stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of `G` of the arrays as the region finds them. -/
theorem flushed_eq (c : Dev nD) (t : Fin cfg2.N) :
    (dat2 V c).flushed 3 t = ((cfg2.win 3).blk t).view.read (Elt Ideal) (G (V c main_v49) (V c main_arg4) (V c main_v51)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz, View.ld_unit_zero (S := S1x128) hz]
  obtain ⟨e0, e1, e2, e3, e4, e5, e6, e7⟩ := idx_facts t
  funext j
  show k2_pay1 (iblk2 V c 0 t) (iblk2 V c 1 t) (iblk2 V c 2 t) j = G (V c main_v49) (V c main_arg4) (V c main_v51) (((cfg2.win 3).blk t).view.emb j)
  obtain ⟨p, q, rfl⟩ : ∃ (p : Fin 5000) (q : Fin 128), j = ix2 p q := ⟨j 0, j 1, eq_ix2 j⟩
  have hq : q.val < 128 := q.isLt
  refine (pay (iblk2 V c 0 t) (iblk2 V c 1 t) (iblk2 V c 2 t) p q).trans ?_
  have h0 : ∀ k : Fin 128, iblk2 V c 0 t (ix2 p k) = V c main_v49 (ix2 ((((cfg2.win 3).blk t).view.emb (ix2 p q)) 0) k) := fun k => by
    show V c main_v49 (((cfg2.win 0).blk t).view.emb (ix2 p k)) = _
    refine congrArg (V c main_v49) (funext fun a => Fin.ext ?_)
    match a with
    | ⟨0, _⟩ => show win2_0.index t (0 : Fin 2) * 5000 + 1 * p.val = win2_3.index t (0 : Fin 2) * 5000 + 1 * p.val; omega
    | ⟨1, _⟩ => show win2_0.index t (1 : Fin 2) * 128 + 1 * k.val = k.val; omega
  have h1 : ∀ k : Fin 128, iblk2 V c 1 t (ix2 k q) = V c main_arg4 (ix2 k ((((cfg2.win 3).blk t).view.emb (ix2 p q)) 1)) := fun k => by
    show V c main_arg4 (((cfg2.win 1).blk t).view.emb (ix2 k q)) = _
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 128 + 1 * q.val = win2_3.index t (1 : Fin 2) * 128 + 1 * q.val; omega
  have h2 : iblk2 V c 2 t (ix2 0 q) = V c main_v51 (ix2 0 ((((cfg2.win 3).blk t).view.emb (ix2 p q)) 1)) := by
    show V c main_v51 (((cfg2.win 2).blk t).view.emb (ix2 0 q)) = _
    refine congrArg (V c main_v51) (funext fun a => Fin.ext ?_)
    match a with
    | ⟨0, _⟩ => show win2_2.index t (0 : Fin 2) * 1 + 1 * 0 = 0; omega
    | ⟨1, _⟩ => show win2_2.index t (1 : Fin 2) * 128 + 1 * q.val = win2_3.index t (1 : Fin 2) * 128 + 1 * q.val; omega
  rw [h2, Finset.sum_congr rfl fun k _ => by rw [h0 k, h1 k]]; rfl

/-- An index of the array is in point `t`'s block iff each coordinate is in the block's range on its axis. -/
theorem mem_blk (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v52).slice (win2_3.rect t)).set ↔ _
  rw [View.set_slice_whole, Rect.mem_set_unit]
  exact Iff.rfl

/-- Row `r` lies in the block of point `r / 5000`: the ten blocks of 5000 rows tile the 50000 rows. -/
theorem cover (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨e0, e1, e2, e3, e4, e5, e6, e7⟩ := idx_facts t
  have ht : t.val = (i 0).val / 5000 := rfl
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- After the region its output array is that function, whole. -/
theorem arr (c : Dev nD) : (dat2 V c).arrAt 3 cfg2.N = G (V c main_v49) (V c main_arg4) (V c main_v51) :=
  (dat2 V c).arrAt_eq_of_cover 3 (G (V c main_v49) (V c main_arg4) (V c main_v51)) (fun t _ => flushed_eq V c t) cover

end Cert.KernelIdeal.Region2

end
-- ==== Proof.Region3.lean ====
/- (run from the unit directory; a layout of the template named first, every «TOKEN» in it replaced by the VALUE given) -/
import proofs.«148064_j9405978378565_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What region 3 leaves in its output array, as one function of the arrays it finds: each entry of the aggregated
    features plus the bias row's entry of its column, clamped below at zero. -/
def G (x : S50000x128.Idx → EReal) (b : S1x128.Idx → EReal) : S50000x128.Idx → EReal :=
  fun i => max (x i + b (ix2 0 (i 1))) (Ideal.ofBits .f32 0x00000000#32)

/-- The bias row, spread over the rows of a block of features and added to it, clamped below at zero: the body's
    value at row `p`, column `q` of its block. -/
theorem pay (x0 : Vec Ideal S5000x128 .f32) (x1 : Vec Ideal S1x128 .f32) (p : Fin 5000) (q : Fin 128) :
    k3_pay1 x0 x1 (ix2 p q) = max (x0 (ix2 p q) + x1 (ix2 0 q)) (Ideal.ofBits .f32 0x00000000#32) := by
  unfold k3_pay1
  show max (shapeCast S5000x128 x0 shapeCasts_S5000x128_S5000x128 (ix2 p q)
      + broadcastTo S5000x128 (shapeCast S1x128 x1 shapeCasts_S1x128_S1x128) broadcasts_S1x128_S5000x128 (ix2 p q)) _ = _
  rw [shapeCast_self, shapeCast_self]
  rw [broadcastTo_apply x1 broadcasts_S1x128_S5000x128 (ix2 p q) (ix2 0 q) (fun a => match a with
    | ⟨0, _⟩ => by show (0 : Nat) = if (1 : Nat) = 1 then 0 else _; rw [if_pos rfl]
    | ⟨1, _⟩ => by show q.val = if (128 : Nat) = 1 then 0 else q.val; rw [if_neg (by decide)])]
  rfl

/-- The printed index maps over the grid: feature blocks move down the rows with the point, the bias row stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem flushed_eq (c : Dev nD) (t : Fin cfg3.N) :
    (dat3 V c).flushed 2 t = ((cfg3.win 2).blk t).view.read (Elt Ideal) (G (V c main_v65) (V c main_v66)) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨e0, e1, e2, e3, e4, e5⟩ := idx_facts t
  funext j
  show k3_pay1 (iblk3 V c 0 t) (iblk3 V c 1 t) j = G (V c main_v65) (V c main_v66) (((cfg3.win 2).blk t).view.emb j)
  obtain ⟨p, q, rfl⟩ : ∃ (p : Fin 5000) (q : Fin 128), j = ix2 p q := ⟨j 0, j 1, eq_ix2 j⟩
  refine (pay (iblk3 V c 0 t) (iblk3 V c 1 t) p q).trans ?_
  have h0 : iblk3 V c 0 t (ix2 p q) = V c main_v65 (((cfg3.win 2).blk t).view.emb (ix2 p q)) := by
    show V c main_v65 (((cfg3.win 0).blk t).view.emb (ix2 p q)) = _
    refine congrArg (V c main_v65) (funext fun a => Fin.ext ?_)
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * q.val = win3_2.index t (1 : Fin 2) * 128 + 1 * q.val; omega
  have h1 : iblk3 V c 1 t (ix2 0 q) = V c main_v66 (ix2 0 ((((cfg3.win 2).blk t).view.emb (ix2 p q)) 1)) := by
    show V c main_v66 (((cfg3.win 1).blk t).view.emb (ix2 0 q)) = _
    refine congrArg (V c main_v66) (funext fun a => Fin.ext ?_)
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  rw [h0, h1]; rfl

/-- An index of the array is in point `t`'s block iff each coordinate is in the block's range on its axis. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v67).slice (win3_2.rect t)).set ↔ _
  rw [View.set_slice_whole, Rect.mem_set_unit]
  exact Iff.rfl

/-- Row `r` lies in the block of point `r / 5000`: the ten blocks of 5000 rows tile the 50000 rows. -/
theorem cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨e0, e1, e2, e3, e4, e5⟩ := idx_facts t
  have ht : t.val = (i 0).val / 5000 := rfl
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After the region its output array is that function, whole. -/
theorem arr (c : Dev nD) : (dat3 V c).arrAt 2 cfg3.N = G (V c main_v65) (V c main_v66) :=
  (dat3 V c).arrAt_eq_of_cover 2 (G (V c main_v65) (V c main_v66)) (fun t _ => flushed_eq V c t) cover

end Cert.KernelIdeal.Region3

end
-- ==== Proof.Region4.lean ====
/- (run from the unit directory; a layout of the template named first, every «TOKEN» in it replaced by the VALUE given) -/
import proofs.«148064_j9405978378565_1_alg».proof.Proof.Gen.KernelIdeal.Frame
import proofs.«148064_j9405978378565_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What region 4 leaves in its output array, as one function of the arrays it finds: row `i 0` of the features
    times column `i 1` of the weights, plus the bias row's entry of that column. -/
def G (x : S50000x128.Idx → EReal) (w : S128x64.Idx → EReal) (b : S1x64.Idx → EReal) : S50000x64.Idx → EReal :=
  fun i => (∑ k : Fin 128, x (ix2 (i 0) k) * w (ix2 k (i 1))) + b (ix2 0 (i 1))

/-- The body's value at row `p`, column `q` of its block: a change of float format is the identity over the
    extended reals, and the product into the zero accumulator is the plain sum over the contracted axis. -/
theorem pay (x0 : Vec Ideal S5000x128 .f32) (x1 : Vec Ideal S128x64 .f32) (x2 : Vec Ideal S1x64 .f32) (p : Fin 5000) (q : Fin 64) :
    k4_pay1 x0 x1 x2 (ix2 p q) = (∑ k : Fin 128, x0 (ix2 p k) * x1 (ix2 k q)) + x2 (ix2 0 q) := by
  have hq : q.val < 64 := q.isLt
  unfold k4_pay1
  show matmul (F := Ideal) dot_S5000x128_S128x64_S5000x64_1_0_0_1_n_n none (truncf .bf16 (shapeCast S5000x128 x0 shapeCasts_S5000x128_S5000x128) bitsLt_bf16_f32) (truncf .bf16 x1 bitsLt_bf16_f32) (constant (F := Ideal) S5000x64 .f32 0x00000000#32) (ix2 p q)
      + broadcastTo S5000x64 (shapeCast S1x64 x2 shapeCasts_S1x64_S1x64) broadcasts_S1x64_S5000x64 (ix2 p q) = _
  simp only [shapeCast_self]
  rw [broadcastTo_apply x2 broadcasts_S1x64_S5000x64 (ix2 p q) (ix2 0 q) (fun a => match a with
    | ⟨0, _⟩ => by show (0 : Nat) = if (1 : Nat) = 1 then 0 else _; rw [if_pos rfl]
    | ⟨1, _⟩ => by show q.val = if (64 : Nat) = 1 then 0 else q.val; split_ifs <;> omega)]
  refine congrArg (· + x2 (ix2 0 q)) ?_
  exact Cert.Lib.PlainDot.matmul_zero_apply (M := 5000) (K := 128) (N := 64) none (truncf .bf16 x0 bitsLt_bf16_f32) (truncf .bf16 x1 bitsLt_bf16_f32) p q

/-- The printed index maps over the grid: feature blocks move down the rows with the point; the weights and the
    bias row stay. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point `t` writes back is block `t` of `G` of the arrays as the region finds them. -/
theorem flushed_eq (c : Dev nD) (t : Fin cfg4.N) :
    (dat4 V c).flushed 3 t = ((cfg4.win 3).blk t).view.read (Elt Ideal) (G (V c main_v67) (V c main_arg6) (V c main_v69)) := by
  show (cfg4.win 3).cut (grid4.coords t) ((dat4 V c).after 3 t) = _
  rw [after4_3]
  unfold out4_3
  rw [View.canon_unit_zero hz]
  simp only [View.ld_unit_zero (S := S5000x128) hz, View.ld_unit_zero (S := S128x64) hz, View.ld_unit_zero (S := S1x64) hz]
  obtain ⟨e0, e1, e2, e3, e4, e5, e6, e7⟩ := idx_facts t
  funext j
  show k4_pay1 (iblk4 V c 0 t) (iblk4 V c 1 t) (iblk4 V c 2 t) j = G (V c main_v67) (V c main_arg6) (V c main_v69) (((cfg4.win 3).blk t).view.emb j)
  obtain ⟨p, q, rfl⟩ : ∃ (p : Fin 5000) (q : Fin 64), j = ix2 p q := ⟨j 0, j 1, eq_ix2 j⟩
  have hq : q.val < 64 := q.isLt
  refine (pay (iblk4 V c 0 t) (iblk4 V c 1 t) (iblk4 V c 2 t) p q).trans ?_
  have h0 : ∀ k : Fin 128, iblk4 V c 0 t (ix2 p k) = V c main_v67 (ix2 ((((cfg4.win 3).blk t).view.emb (ix2 p q)) 0) k) := fun k => by
    show V c main_v67 (((cfg4.win 0).blk t).view.emb (ix2 p k)) = _
    refine congrArg (V c main_v67) (funext fun a => Fin.ext ?_)
    match a with
    | ⟨0, _⟩ => show win4_0.index t (0 : Fin 2) * 5000 + 1 * p.val = win4_3.index t (0 : Fin 2) * 5000 + 1 * p.val; omega
    | ⟨1, _⟩ => show win4_0.index t (1 : Fin 2) * 128 + 1 * k.val = k.val; omega
  have h1 : ∀ k : Fin 128, iblk4 V c 1 t (ix2 k q) = V c main_arg6 (ix2 k ((((cfg4.win 3).blk t).view.emb (ix2 p q)) 1)) := fun k => by
    show V c main_arg6 (((cfg4.win 1).blk t).view.emb (ix2 k q)) = _
    refine congrArg (V c main_arg6) (funext fun a => Fin.ext ?_)
    match a with
    | ⟨0, _⟩ => show win4_1.index t (0 : Fin 2) * 128 + 1 * k.val = k.val; omega
    | ⟨1, _⟩ => show win4_1.index t (1 : Fin 2) * 64 + 1 * q.val = win4_3.index t (1 : Fin 2) * 64 + 1 * q.val; omega
  have h2 : iblk4 V c 2 t (ix2 0 q) = V c main_v69 (ix2 0 ((((cfg4.win 3).blk t).view.emb (ix2 p q)) 1)) := by
    show V c main_v69 (((cfg4.win 2).blk t).view.emb (ix2 0 q)) = _
    refine congrArg (V c main_v69) (funext fun a => Fin.ext ?_)
    match a with
    | ⟨0, _⟩ => show win4_2.index t (0 : Fin 2) * 1 + 1 * 0 = 0; omega
    | ⟨1, _⟩ => show win4_2.index t (1 : Fin 2) * 64 + 1 * q.val = win4_3.index t (1 : Fin 2) * 64 + 1 * q.val; omega
  rw [h2, Finset.sum_congr rfl fun k _ => by rw [h0 k, h1 k]]; rfl

/-- An index of the array is in point `t`'s block iff each coordinate is in the block's range on its axis. -/
theorem mem_blk (t : Fin cfg4.N) (i : S50000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v70).slice (win4_3.rect t)).set ↔ _
  rw [View.set_slice_whole, Rect.mem_set_unit]
  exact Iff.rfl

/-- Row `r` lies in the block of point `r / 5000`: the ten blocks of 5000 rows tile the 50000 rows. -/
theorem cover (i : S50000x64.Idx) :
    ∃ t : Fin cfg4.N, (cfg4.win 3).flush t = true ∧ i ∈ ((cfg4.win 3).blk t).view.set := by
  have hi0 : (i 0).val < 50000 := (i 0).isLt
  have hi1 : (i 1).val < 64 := (i 1).isLt
  have hN : cfg4.N = 10 := N_4
  let t : Fin cfg4.N := ⟨(i 0).val / 5000, by rw [hN]; omega⟩
  obtain ⟨e0, e1, e2, e3, e4, e5, e6, e7⟩ := idx_facts t
  have ht : t.val = (i 0).val / 5000 := rfl
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 64 ≤ (i 1).val ∧ (i 1).val < win4_3.index t (1 : Fin 2) * 64 + 64; omega

/-- After the region its output array is that function, whole. -/
theorem arr (c : Dev nD) : (dat4 V c).arrAt 3 cfg4.N = G (V c main_v67) (V c main_arg6) (V c main_v69) :=
  (dat4 V c).arrAt_eq_of_cover 3 (G (V c main_v67) (V c main_arg6) (V c main_v69)) (fun t _ => flushed_eq V c t) cover

end Cert.KernelIdeal.Region4

end
-- ==== Proof.Region5.lean ====
/- (run from the unit directory; a layout of the template named first, every «TOKEN» in it replaced by the VALUE given) -/
import proofs.«148064_j9405978378565_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region5

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What region 5 leaves in its output array, as one function of the arrays it finds: each entry of the aggregated
    features plus the bias row's entry of its column. -/
def G (x : S50000x64.Idx → EReal) (b : S1x64.Idx → EReal) : S50000x64.Idx → EReal :=
  fun i => x i + b (ix2 0 (i 1))

/-- The bias row, spread over the rows of a block of features and added to it: the body's
    value at row `p`, column `q` of its block. -/
theorem pay (x0 : Vec Ideal S5000x64 .f32) (x1 : Vec Ideal S1x64 .f32) (p : Fin 5000) (q : Fin 64) :
    k5_pay1 x0 x1 (ix2 p q) = x0 (ix2 p q) + x1 (ix2 0 q) := by
  unfold k5_pay1
  show shapeCast S5000x64 x0 shapeCasts_S5000x64_S5000x64 (ix2 p q)
      + broadcastTo S5000x64 (shapeCast S1x64 x1 shapeCasts_S1x64_S1x64) broadcasts_S1x64_S5000x64 (ix2 p q) = _
  rw [shapeCast_self, shapeCast_self]
  rw [broadcastTo_apply x1 broadcasts_S1x64_S5000x64 (ix2 p q) (ix2 0 q) (fun a => match a with
    | ⟨0, _⟩ => by show (0 : Nat) = if (1 : Nat) = 1 then 0 else _; rw [if_pos rfl]
    | ⟨1, _⟩ => by show q.val = if (64 : Nat) = 1 then 0 else q.val; rw [if_neg (by decide)])]

/-- The printed index maps over the grid: feature blocks move down the rows with the point, the bias row stays. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem flushed_eq (c : Dev nD) (t : Fin cfg5.N) :
    (dat5 V c).flushed 2 t = ((cfg5.win 2).blk t).view.read (Elt Ideal) (G (V c main_v83) (V c main_v84)) := by
  show (cfg5.win 2).cut (grid5.coords t) ((dat5 V c).after 2 t) = _
  rw [after5_2]
  unfold out5_2
  rw [View.canon_unit_zero hz]
  simp only [View.ld_unit_zero (S := S5000x64) hz, View.ld_unit_zero (S := S1x64) hz]
  obtain ⟨e0, e1, e2, e3, e4, e5⟩ := idx_facts t
  funext j
  show k5_pay1 (iblk5 V c 0 t) (iblk5 V c 1 t) j = G (V c main_v83) (V c main_v84) (((cfg5.win 2).blk t).view.emb j)
  obtain ⟨p, q, rfl⟩ : ∃ (p : Fin 5000) (q : Fin 64), j = ix2 p q := ⟨j 0, j 1, eq_ix2 j⟩
  refine (pay (iblk5 V c 0 t) (iblk5 V c 1 t) p q).trans ?_
  have h0 : iblk5 V c 0 t (ix2 p q) = V c main_v83 (((cfg5.win 2).blk t).view.emb (ix2 p q)) := by
    show V c main_v83 (((cfg5.win 0).blk t).view.emb (ix2 p q)) = _
    refine congrArg (V c main_v83) (funext fun a => Fin.ext ?_)
    match a with
    | ⟨0, _⟩ => show win5_0.index t (0 : Fin 2) * 5000 + 1 * p.val = win5_2.index t (0 : Fin 2) * 5000 + 1 * p.val; omega
    | ⟨1, _⟩ => show win5_0.index t (1 : Fin 2) * 64 + 1 * q.val = win5_2.index t (1 : Fin 2) * 64 + 1 * q.val; omega
  have h1 : iblk5 V c 1 t (ix2 0 q) = V c main_v84 (ix2 0 ((((cfg5.win 2).blk t).view.emb (ix2 p q)) 1)) := by
    show V c main_v84 (((cfg5.win 1).blk t).view.emb (ix2 0 q)) = _
    refine congrArg (V c main_v84) (funext fun a => Fin.ext ?_)
    match a with
    | ⟨0, _⟩ => show win5_1.index t (0 : Fin 2) * 1 + 1 * 0 = 0; omega
    | ⟨1, _⟩ => show win5_1.index t (1 : Fin 2) * 64 + 1 * q.val = win5_2.index t (1 : Fin 2) * 64 + 1 * q.val; omega
  rw [h0, h1]; rfl

/-- An index of the array is in point `t`'s block iff each coordinate is in the block's range on its axis. -/
theorem mem_blk (t : Fin cfg5.N) (i : S50000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v85).slice (win5_2.rect t)).set ↔ _
  rw [View.set_slice_whole, Rect.mem_set_unit]
  exact Iff.rfl

/-- Row `r` lies in the block of point `r / 5000`: the ten blocks of 5000 rows tile the 50000 rows. -/
theorem cover (i : S50000x64.Idx) :
    ∃ t : Fin cfg5.N, (cfg5.win 2).flush t = true ∧ i ∈ ((cfg5.win 2).blk t).view.set := by
  have hi0 : (i 0).val < 50000 := (i 0).isLt
  have hi1 : (i 1).val < 64 := (i 1).isLt
  have hN : cfg5.N = 10 := N_5
  let t : Fin cfg5.N := ⟨(i 0).val / 5000, by rw [hN]; omega⟩
  obtain ⟨e0, e1, e2, e3, e4, e5⟩ := idx_facts t
  have ht : t.val = (i 0).val / 5000 := rfl
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 64 ≤ (i 1).val ∧ (i 1).val < win5_2.index t (1 : Fin 2) * 64 + 64; omega

/-- After the region its output array is that function, whole. -/
theorem arr (c : Dev nD) : (dat5 V c).arrAt 2 cfg5.N = G (V c main_v83) (V c main_v84) :=
  (dat5 V c).arrAt_eq_of_cover 2 (G (V c main_v83) (V c main_v84)) (fun t _ => flushed_eq V c t) cover

end Cert.KernelIdeal.Region5

end
-- ==== Proof.Region6.lean ====
/- (run from the unit directory; a layout of the template named first, every «TOKEN» in it replaced by the VALUE given) -/
import proofs.«148064_j9405978378565_1_alg».proof.Proof.Gen.KernelIdeal.Frame
import proofs.«148064_j9405978378565_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region6

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What region 6 leaves in its output array, as one function of the arrays it finds: row `i 0` of the features
    times column `i 1` of the weights, plus the bias row's entry of that column. -/
def G (x : S50000x64.Idx → EReal) (w : S64x1.Idx → EReal) (b : S1x1.Idx → EReal) : S50000x1.Idx → EReal :=
  fun i => (∑ k : Fin 64, x (ix2 (i 0) k) * w (ix2 k (i 1))) + b (ix2 0 (i 1))

/-- The body's value at row `p`, column `q` of its block: a change of float format is the identity over the
    extended reals, and the product into the zero accumulator is the plain sum over the contracted axis. -/
theorem pay (x0 : Vec Ideal S5000x64 .f32) (x1 : Vec Ideal S64x1 .f32) (x2 : Vec Ideal S1x1 .f32) (p : Fin 5000) (q : Fin 1) :
    k6_pay1 x0 x1 x2 (ix2 p q) = (∑ k : Fin 64, x0 (ix2 p k) * x1 (ix2 k q)) + x2 (ix2 0 q) := by
  have hq : q.val < 1 := q.isLt
  unfold k6_pay1
  show matmul (F := Ideal) dot_S5000x64_S64x1_S5000x1_1_0_0_1_n_n none (truncf .bf16 (shapeCast S5000x64 x0 shapeCasts_S5000x64_S5000x64) bitsLt_bf16_f32) (truncf .bf16 x1 bitsLt_bf16_f32) (constant (F := Ideal) S5000x1 .f32 0x00000000#32) (ix2 p q)
      + broadcastTo S5000x1 (shapeCast S1x1 x2 shapeCasts_S1x1_S1x1) broadcasts_S1x1_S5000x1 (ix2 p q) = _
  simp only [shapeCast_self]
  rw [broadcastTo_apply x2 broadcasts_S1x1_S5000x1 (ix2 p q) (ix2 0 q) (fun a => match a with
    | ⟨0, _⟩ => by show (0 : Nat) = if (1 : Nat) = 1 then 0 else _; rw [if_pos rfl]
    | ⟨1, _⟩ => by show q.val = if (1 : Nat) = 1 then 0 else q.val; split_ifs <;> omega)]
  refine congrArg (· + x2 (ix2 0 q)) ?_
  exact Cert.Lib.PlainDot.matmul_zero_apply (M := 5000) (K := 64) (N := 1) none (truncf .bf16 x0 bitsLt_bf16_f32) (truncf .bf16 x1 bitsLt_bf16_f32) p q

/-- The printed index maps over the grid: feature blocks move down the rows with the point; the weights and the
    bias row stay. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What point `t` writes back is block `t` of `G` of the arrays as the region finds them. -/
theorem flushed_eq (c : Dev nD) (t : Fin cfg6.N) :
    (dat6 V c).flushed 3 t = ((cfg6.win 3).blk t).view.read (Elt Ideal) (G (V c main_v85) (V c main_arg8) (V c main_v86)) := by
  show (cfg6.win 3).cut (grid6.coords t) ((dat6 V c).after 3 t) = _
  rw [after6_3]
  unfold out6_3
  rw [View.canon_unit_zero hz]
  simp only [View.ld_unit_zero (S := S5000x64) hz, View.ld_unit_zero (S := S64x1) hz, View.ld_unit_zero (S := S1x1) hz]
  obtain ⟨e0, e1, e2, e3, e4, e5, e6, e7⟩ := idx_facts t
  funext j
  show k6_pay1 (iblk6 V c 0 t) (iblk6 V c 1 t) (iblk6 V c 2 t) j = G (V c main_v85) (V c main_arg8) (V c main_v86) (((cfg6.win 3).blk t).view.emb j)
  obtain ⟨p, q, rfl⟩ : ∃ (p : Fin 5000) (q : Fin 1), j = ix2 p q := ⟨j 0, j 1, eq_ix2 j⟩
  have hq : q.val < 1 := q.isLt
  refine (pay (iblk6 V c 0 t) (iblk6 V c 1 t) (iblk6 V c 2 t) p q).trans ?_
  have h0 : ∀ k : Fin 64, iblk6 V c 0 t (ix2 p k) = V c main_v85 (ix2 ((((cfg6.win 3).blk t).view.emb (ix2 p q)) 0) k) := fun k => by
    show V c main_v85 (((cfg6.win 0).blk t).view.emb (ix2 p k)) = _
    refine congrArg (V c main_v85) (funext fun a => Fin.ext ?_)
    match a with
    | ⟨0, _⟩ => show win6_0.index t (0 : Fin 2) * 5000 + 1 * p.val = win6_3.index t (0 : Fin 2) * 5000 + 1 * p.val; omega
    | ⟨1, _⟩ => show win6_0.index t (1 : Fin 2) * 64 + 1 * k.val = k.val; omega
  have h1 : ∀ k : Fin 64, iblk6 V c 1 t (ix2 k q) = V c main_arg8 (ix2 k ((((cfg6.win 3).blk t).view.emb (ix2 p q)) 1)) := fun k => by
    show V c main_arg8 (((cfg6.win 1).blk t).view.emb (ix2 k q)) = _
    refine congrArg (V c main_arg8) (funext fun a => Fin.ext ?_)
    match a with
    | ⟨0, _⟩ => show win6_1.index t (0 : Fin 2) * 64 + 1 * k.val = k.val; omega
    | ⟨1, _⟩ => show win6_1.index t (1 : Fin 2) * 1 + 1 * q.val = win6_3.index t (1 : Fin 2) * 1 + 1 * q.val; omega
  have h2 : iblk6 V c 2 t (ix2 0 q) = V c main_v86 (ix2 0 ((((cfg6.win 3).blk t).view.emb (ix2 p q)) 1)) := by
    show V c main_v86 (((cfg6.win 2).blk t).view.emb (ix2 0 q)) = _
    refine congrArg (V c main_v86) (funext fun a => Fin.ext ?_)
    match a with
    | ⟨0, _⟩ => show win6_2.index t (0 : Fin 2) * 1 + 1 * 0 = 0; omega
    | ⟨1, _⟩ => show win6_2.index t (1 : Fin 2) * 1 + 1 * q.val = win6_3.index t (1 : Fin 2) * 1 + 1 * q.val; omega
  rw [h2, Finset.sum_congr rfl fun k _ => by rw [h0 k, h1 k]]; rfl

/-- An index of the array is in point `t`'s block iff each coordinate is in the block's range on its axis. -/
theorem mem_blk (t : Fin cfg6.N) (i : S50000x1.Idx) :
    i ∈ ((cfg6.win 3).blk t).view.set ↔ ∀ a : Fin 2, win6_3.index t a * S5000x1.size a ≤ (i a).val ∧ (i a).val < win6_3.index t a * S5000x1.size a + S5000x1.size a := by
  show i ∈ ((View.whole main_v87).slice (win6_3.rect t)).set ↔ _
  rw [View.set_slice_whole, Rect.mem_set_unit]
  exact Iff.rfl

/-- Row `r` lies in the block of point `r / 5000`: the ten blocks of 5000 rows tile the 50000 rows. -/
theorem cover (i : S50000x1.Idx) :
    ∃ t : Fin cfg6.N, (cfg6.win 3).flush t = true ∧ i ∈ ((cfg6.win 3).blk t).view.set := by
  have hi0 : (i 0).val < 50000 := (i 0).isLt
  have hi1 : (i 1).val < 1 := (i 1).isLt
  have hN : cfg6.N = 10 := N_6
  let t : Fin cfg6.N := ⟨(i 0).val / 5000, by rw [hN]; omega⟩
  obtain ⟨e0, e1, e2, e3, e4, e5, e6, e7⟩ := idx_facts t
  have ht : t.val = (i 0).val / 5000 := rfl
  refine ⟨t, flush6_3 t, ?_⟩
  rw [mem_blk]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 1 ≤ (i 1).val ∧ (i 1).val < win6_3.index t (1 : Fin 2) * 1 + 1; omega

/-- After the region its output array is that function, whole. -/
theorem arr (c : Dev nD) : (dat6 V c).arrAt 3 cfg6.N = G (V c main_v85) (V c main_arg8) (V c main_v86) :=
  (dat6 V c).arrAt_eq_of_cover 3 (G (V c main_v85) (V c main_arg8) (V c main_v86)) (fun t _ => flushed_eq V c t) cover

end Cert.KernelIdeal.Region6

end
-- ==== Proof.Layers.lean ====
import proofs.«148064_j9405978378565_1_alg».proof.Proof.Gen.KernelIdeal.Frame
import proofs.«148064_j9405978378565_1_alg».proof.Proof.RefRead
import proofs.«148064_j9405978378565_1_alg».proof.Proof.Carry
import proofs.«148064_j9405978378565_1_alg».proof.Proof.Norm
import proofs.«148064_j9405978378565_1_alg».proof.Proof.Host
import proofs.«148064_j9405978378565_1_alg».proof.Proof.Region0
import proofs.«148064_j9405978378565_1_alg».proof.Proof.Region1
import proofs.«148064_j9405978378565_1_alg».proof.Proof.Region2
import proofs.«148064_j9405978378565_1_alg».proof.Proof.Region3
import proofs.«148064_j9405978378565_1_alg».proof.Proof.Region4
import proofs.«148064_j9405978378565_1_alg».proof.Proof.Region5
import proofs.«148064_j9405978378565_1_alg».proof.Proof.Region6
import Idealize.ShloMosaic.Lib.Pipeline.Value
import Idealize.ShloMosaic.Lib.ValueIdx
import Idealize.ShloMosaic.PureOps.Ideal.Laws
import Idealize.ShloMosaic.Lib.StableHlo.Run

set_option maxRecDepth 16384

noncomputable section

namespace Cert.KernelIdeal.Layers

open Cert.KernelIdeal Cert.KernelIdeal.Gen Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg)

open Idealize.ShloMosaic.ValueIdx

/-!
  The kernel's program, layer by layer, against the reference's stages over the extended reals. A matrix-product region
  leaves the reference's `dot_general` of the same operands (the product into a zero accumulator is the plain sum over
  the contracted axis, a change of float format is the identity, and the bias row it is handed is zero); the host
  operations between regions are the reference's own; a bias region leaves the aggregated features plus the bias row,
  clamped below at zero where the layer has its clamp, which is the reference's sum and maximum entry by entry.
-/

/-- An index of a rank-two shape with coordinates `a` and `b` is `ix2 a b`. -/
theorem ix2_of {n0 n1 : Nat} (f : (⟨2, ![n0, n1]⟩ : Shape).Idx) (a : Fin n0) (b : Fin n1) (h0 : f 0 = a) (h1 : f 1 = b) :
    f = ix2 a b :=
  funext fun d => match d with | ⟨0, _⟩ => h0 | ⟨1, _⟩ => h1

/-- Row `p` of `x` times column `q` of `w`, plus entry `q` of the row `b`: what every matrix-product region's array
    function is at entry `(p, q)`, whatever the sizes. -/
theorem product_apply {M K N : Nat} (x : (⟨2, ![M, K]⟩ : Shape).Idx → EReal) (w : (⟨2, ![K, N]⟩ : Shape).Idx → EReal)
    (b : (⟨2, ![1, N]⟩ : Shape).Idx → EReal) (p : Fin M) (q : Fin N) :
    (fun i : (⟨2, ![M, N]⟩ : Shape).Idx => (∑ k : Fin K, x (ix2 (i 0) k) * w (ix2 k (i 1))) + b (ix2 0 (i 1))) (ix2 p q)
      = (∑ k : Fin K, x (ix2 p k) * w (ix2 k q)) + b (ix2 0 q) := rfl

/-- Region 0 leaves in its output array the reference's matrix product of the same operands: the bias row it is given
    is zero, and adding zero changes no extended real. -/
theorem W4_v34 (c : Dev nD) :
    W4 m ρ c (Proc.devRef .tc main_v34) = val_main_v32 (F := Ideal) (m ((c : Thread nD τ).loc main_arg0)) (m ((c : Thread nD τ).loc main_arg2)) := by
  refine (W4_arr m ρ c 3).trans ?_
  rw [Region0.arr]
  have hx : V3 m ρ c main_arg0 = (m ((c : Thread nD τ).loc main_arg0)) := Host.W3_arg0 m ρ c
  have hw : V3 m ρ c main_arg2 = (m ((c : Thread nD τ).loc main_arg2)) := Host.W3_arg2 m ρ c
  funext i
  obtain ⟨p, q, rfl⟩ : ∃ (p : Fin 50000) (q : Fin 128), i = ix2 p q := ⟨i 0, i 1, eq_ix2 i⟩
  have hb : (V3 m ρ c main_v33 : S1x128.Idx → EReal) (ix2 0 q) = Ideal.ofBits .f32 0x00000000#32 := Host.W3_v33 m ρ c (ix2 0 q)
  refine (product_apply (V3 m ρ c main_arg0) (V3 m ρ c main_arg2) (V3 m ρ c main_v33) p q).trans ?_
  rw [hb, hx, hw, Ideal.ofBits_zero_f32, add_zero, val_main_v32_apply]
  refine Finset.sum_congr rfl fun k _ => ?_
  rw [ix2_of (lidx_main_v32 (ix2 p q) k) p k rfl rfl, ix2_of (ridx_main_v32 (ix2 p q) k) k q rfl rfl]

/-- Region 1 leaves in its output array the reference's aggregated features plus bias, clamped below at zero. -/
theorem W6_v49 (c : Dev nD) :
    W6 m ρ c (Proc.devRef .tc main_v49) = val_main_v49 (F := Ideal) (m ((c : Thread nD τ).loc main_arg0)) (m ((c : Thread nD τ).loc main_arg1)) (m ((c : Thread nD τ).loc main_arg2)) (m ((c : Thread nD τ).loc main_arg3)) := by
  refine (W6_arr m ρ c 2).trans ?_
  rw [Region1.arr]
  have hx : V5 m ρ c main_v47 = val_main_v45 (F := Ideal) (m ((c : Thread nD τ).loc main_arg0)) (m ((c : Thread nD τ).loc main_arg1)) (m ((c : Thread nD τ).loc main_arg2)) := Host.W5_v47 m ρ c (W4_v34 m ρ c)
  have hb : V5 m ρ c main_v48 = val_main_v46 (F := Ideal) (m ((c : Thread nD τ).loc main_arg3)) := Host.W5_v48 m ρ c
  rw [hx, hb]
  funext i
  rw [val_main_v49_apply, val_main_v48_apply, val_main_v47_apply, val_main_call1_v0_apply, val_main_call1_cst_apply, ix2_of (idx_main_v47 i) 0 (i 1) rfl rfl]
  rfl

/-- Region 2 leaves in its output array the reference's matrix product of the same operands: the bias row it is given
    is zero, and adding zero changes no extended real. -/
theorem W8_v52 (c : Dev nD) :
    W8 m ρ c (Proc.devRef .tc main_v52) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W8_arr m ρ c 3).trans ?_
  rw [Region2.arr]
  have hx : V7 m ρ c main_v49 = val_main_v49 (F := Ideal) (m ((c : Thread nD τ).loc main_arg0)) (m ((c : Thread nD τ).loc main_arg1)) (m ((c : Thread nD τ).loc main_arg2)) (m ((c : Thread nD τ).loc main_arg3)) := (Carry.W7_of m ρ c main_v49 (by decide)).trans (W6_v49 m ρ c)
  have hw : V7 m ρ c main_arg4 = (m ((c : Thread nD τ).loc main_arg4)) := Host.W7_arg4 m ρ c
  funext i
  obtain ⟨p, q, rfl⟩ : ∃ (p : Fin 50000) (q : Fin 128), i = ix2 p q := ⟨i 0, i 1, eq_ix2 i⟩
  have hb : (V7 m ρ c main_v51 : S1x128.Idx → EReal) (ix2 0 q) = Ideal.ofBits .f32 0x00000000#32 := Host.W7_v51 m ρ c (ix2 0 q)
  refine (product_apply (V7 m ρ c main_v49) (V7 m ρ c main_arg4) (V7 m ρ c main_v51) p q).trans ?_
  rw [hb, hx, hw, Ideal.ofBits_zero_f32, add_zero, val_main_v50_apply]
  refine Finset.sum_congr rfl fun k _ => ?_
  rw [ix2_of (lidx_main_v50 (ix2 p q) k) p k rfl rfl, ix2_of (ridx_main_v50 (ix2 p q) k) k q rfl rfl]

/-- Region 3 leaves in its output array the reference's aggregated features plus bias, clamped below at zero. -/
theorem W10_v67 (c : Dev nD) :
    W10 m ρ c (Proc.devRef .tc main_v67) = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W10_arr m ρ c 2).trans ?_
  rw [Region3.arr]
  have hx : V9 m ρ c main_v65 = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := Host.W9_v65 m ρ c (W8_v52 m ρ c)
  have hb : V9 m ρ c main_v66 = val_main_v64 (F := Ideal) (m ((c : Thread nD τ).loc main_arg5)) := Host.W9_v66 m ρ c
  rw [hx, hb]
  funext i
  rw [val_main_v67_apply, val_main_v66_apply, val_main_v65_apply, val_main_call2_v0_apply, val_main_call2_cst_apply, ix2_of (idx_main_v65 i) 0 (i 1) rfl rfl]
  rfl

/-- Region 4 leaves in its output array the reference's matrix product of the same operands: the bias row it is given
    is zero, and adding zero changes no extended real. -/
theorem W12_v70 (c : Dev nD) :
    W12 m ρ c (Proc.devRef .tc main_v70) = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W12_arr m ρ c 3).trans ?_
  rw [Region4.arr]
  have hx : V11 m ρ c main_v67 = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := (Carry.W11_of m ρ c main_v67 (by decide)).trans (W10_v67 m ρ c)
  have hw : V11 m ρ c main_arg6 = (m ((c : Thread nD τ).loc main_arg6)) := Host.W11_arg6 m ρ c
  funext i
  obtain ⟨p, q, rfl⟩ : ∃ (p : Fin 50000) (q : Fin 64), i = ix2 p q := ⟨i 0, i 1, eq_ix2 i⟩
  have hb : (V11 m ρ c main_v69 : S1x64.Idx → EReal) (ix2 0 q) = Ideal.ofBits .f32 0x00000000#32 := Host.W11_v69 m ρ c (ix2 0 q)
  refine (product_apply (V11 m ρ c main_v67) (V11 m ρ c main_arg6) (V11 m ρ c main_v69) p q).trans ?_
  rw [hb, hx, hw, Ideal.ofBits_zero_f32, add_zero, val_main_v68_apply]
  refine Finset.sum_congr rfl fun k _ => ?_
  rw [ix2_of (lidx_main_v68 (ix2 p q) k) p k rfl rfl, ix2_of (ridx_main_v68 (ix2 p q) k) k q rfl rfl]

/-- Region 5 leaves in its output array the reference's aggregated features plus bias. -/
theorem W14_v85 (c : Dev nD) :
    W14 m ρ c (Proc.devRef .tc main_v85) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W14_arr m ρ c 2).trans ?_
  rw [Region5.arr]
  have hx : V13 m ρ c main_v83 = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := Host.W13_v83 m ρ c (W12_v70 m ρ c)
  have hb : V13 m ρ c main_v84 = val_main_v82 (F := Ideal) (m ((c : Thread nD τ).loc main_arg7)) := Host.W13_v84 m ρ c
  rw [hx, hb]
  funext i
  rw [val_main_v84_apply, val_main_v83_apply, ix2_of (idx_main_v83 i) 0 (i 1) rfl rfl]
  rfl

/-- The last region leaves the reference's last matrix product plus its bias: the first result. -/
theorem W16_v87 (c : Dev nD) :
    W16 m ρ c (Proc.devRef .tc main_v87) = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W16_arr m ρ c 3).trans ?_
  rw [Region6.arr]
  have hx : V15 m ρ c main_v85 = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
    (Carry.W15_of m ρ c main_v85 (by decide)).trans (W14_v85 m ρ c)
  have hw : V15 m ρ c main_arg8 = (m ((c : Thread nD τ).loc main_arg8)) := Host.W15_arg8 m ρ c
  have hb : V15 m ρ c main_v86 = val_main_v86 (F := Ideal) (m ((c : Thread nD τ).loc main_arg9)) := Host.W15_v86 m ρ c
  rw [hx, hw, hb]
  funext i
  obtain ⟨p, q, rfl⟩ : ∃ (p : Fin 50000) (q : Fin 1), i = ix2 p q := ⟨i 0, i 1, eq_ix2 i⟩
  refine (product_apply _ _ _ p q).trans ?_
  rw [val_main_v88_apply, val_main_v85_apply, val_main_v87_apply,
    ix2_of (idx_main_v87 (ix2 p q)) 0 q rfl (Fin.ext (show (0 : Nat) = q.val from by have h : q.val < 1 := q.isLt; omega))]
  show (_ : EReal) + _ = (_ : EReal) + _
  refine congrArg (fun t : EReal => t + val_main_v86 (F := Ideal) (m ((c : Thread nD τ).loc main_arg9)) (ix2 0 q)) ?_
  refine Finset.sum_congr rfl fun k _ => ?_
  rw [ix2_of (lidx_main_v85 (ix2 p q) k) p k rfl rfl, ix2_of (ridx_main_v85 (ix2 p q) k) k q rfl rfl]

/-- The features the last region reads it does not write: at the end they are what the third bias region left, the
    second result. -/
theorem W16_v85 (c : Dev nD) :
    W16 m ρ c (Proc.devRef .tc main_v85) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W16_arr m ρ c 0).trans <| ((dat6 (V15 m ρ) c).arrAt_in 0 rfl _).trans <| (A_eq6 (V15 m ρ) c 0).trans <|
    (Carry.W15_of m ρ c main_v85 (by decide)).trans (W14_v85 m ρ c)

end Cert.KernelIdeal.Layers

end
-- ==== Proof.lean ====
/-
  A three-layer graph convolution network with a linear read-out, over 50000 nodes and 800000 edges with a self loop
  added at every node. The kernel's program does the four matrix products and the three bias additions (two of them
  followed by a clamp at zero) in seven tiled kernel regions, ten blocks of 5000 rows each, and everything that touches
  the graph — the degrees, the edge normalisation, the gather of source rows, the scatter-add into destination rows —
  in host operations between the regions; the reference does all of it in host operations.

  Over the extended reals the two compute the same function of the arguments, stage by stage. A matrix-product region
  rounds its operands to another float format, which over the extended reals is the identity, multiplies into a zero
  accumulator, which is the plain sum over the contracted axis like the reference's `dot_general`, and adds a bias row
  that is zero for the three convolution layers (adding zero changes no extended real, infinite ones included) and the
  read-out's bias for the last. A bias region adds the bias row to every row and clamps at zero where the layer has its
  clamp: the reference's broadcast, sum and maximum, entry by entry. The host operations on the graph are the same
  operations in both programs and are carried as they stand, never opened. No law used needs a finite operand, so the
  precondition is not read.

  The three frames are the generated ones (the reference's is its generated run with the results dropped); the ideal pass
  rewrote nothing, so the kernel's idealization is its own text.
-/
import proofs.«148064_j9405978378565_1_alg».proof.Defs
import proofs.«148064_j9405978378565_1_alg».proof.Proof.Gen.Kernel
import proofs.«148064_j9405978378565_1_alg».proof.Proof.Gen.Kernel.Skeleton
import proofs.«148064_j9405978378565_1_alg».proof.Proof.Gen.Kernel.Launch
import proofs.«148064_j9405978378565_1_alg».proof.Proof.Gen.Kernel.Points
import proofs.«148064_j9405978378565_1_alg».proof.Proof.Gen.Kernel.Frame
import proofs.«148064_j9405978378565_1_alg».proof.Proof.Gen.KernelIdeal
import proofs.«148064_j9405978378565_1_alg».proof.Proof.Gen.KernelIdeal.Skeleton
import proofs.«148064_j9405978378565_1_alg».proof.Proof.Gen.KernelIdeal.Launch
import proofs.«148064_j9405978378565_1_alg».proof.Proof.Gen.KernelIdeal.Points
import proofs.«148064_j9405978378565_1_alg».proof.Proof.Gen.KernelIdeal.Frame
import proofs.«148064_j9405978378565_1_alg».proof.Proof.Gen.ReferenceIdeal
import proofs.«148064_j9405978378565_1_alg».proof.Proof.Gen.Pre_finite_inputs
import proofs.«148064_j9405978378565_1_alg».proof.Proof.RefRun
import proofs.«148064_j9405978378565_1_alg».proof.Proof.RefRead
import proofs.«148064_j9405978378565_1_alg».proof.Proof.KernelRun
import proofs.«148064_j9405978378565_1_alg».proof.Proof.Layers
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The ideal pass rewrote no operation. -/
theorem preserves : Cert.preserves_Kernel_KernelIdeal := trivial

/-- Both programs end with the read-out and the last layer's features at the reference's stages of the kernel's
    arguments: the kernel's program by its layers, the reference by its run, the arguments' agreement rewritten. -/
theorem algebraic : Cert.algebraic_KernelIdeal_ReferenceIdeal := by
  intro m ρ m' ρ' _ hagree
  refine ⟨fun c => Cert.ReferenceIdeal.ReadP.val_main_v88 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.ReadP.val_main_v84 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Layers.W16_v87 m ρ c), (h c).2.1.trans (Cert.KernelIdeal.Layers.W16_v85 m ρ c), (h c).2.2⟩)
      (Cert.KernelIdeal.RunNamed.run_named m ρ)
  · refine (θ_run Cert.ReferenceIdeal.defs _ _).mono (fun r h c => ⟨(h c).1.trans ?_, (h c).2.1.trans ?_, (h c).2.2⟩)
      (Cert.ReferenceIdeal.ValueP.run (F := Ideal) m' ρ')
    · obtain ⟨e0, e1, e2, e3, e4, e5, e6, e7, e8, e9⟩ := hagree c
      rw [Cert.ReferenceIdeal.ReadP.val_main_v88_eq, e0, e1, e2, e3, e4, e5, e6, e7, e8, e9]
    · obtain ⟨e0, e1, e2, e3, e4, e5, e6, e7, e8, e9⟩ := hagree c
      rw [Cert.ReferenceIdeal.ReadP.val_main_v84_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
